-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg9
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x600000 32) (main_arg2 : FVec F S600000x32 .f32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S10000x32 : Shape := ⟨2, ![10000, 32]⟩
abbrev S10000x128 : Shape := ⟨2, ![10000, 128]⟩
abbrev S1x128 : Shape := ⟨2, ![1, 128]⟩
abbrev S5000x128 : Shape := ⟨2, ![5000, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 54
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S100000x128, .f32⟩
  | .hbm, ⟨53, _⟩ => ⟨S100000x64, .f32⟩
  | .local _ .vmem, ⟨0, _⟩ => ⟨S10000x32, .f32⟩
  | .local _ .vmem, ⟨1, _⟩ => ⟨S10000x32, .f32⟩
  | .local _ .vmem, ⟨2, _⟩ => ⟨S10000x128, .f32⟩
  | .local _ .vmem, ⟨3, _⟩ => ⟨S10000x128, .f32⟩
  | .local _ .vmem, ⟨4, _⟩ => ⟨S32x128, .f32⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S10000x32, .f32⟩
  | .local _ .vmem, ⟨19, _⟩ => ⟨S10000x32, .f32⟩
  | .local _ .vmem, ⟨20, _⟩ => ⟨S10000x128, .f32⟩
  | .local _ .vmem, ⟨21, _⟩ => ⟨S10000x128, .f32⟩
  | .local _ .vmem, ⟨22, _⟩ => ⟨S32x128, .f32⟩
  | .local _ .vmem, ⟨23, _⟩ => ⟨S128, .f32⟩
  | .local _ .vmem, ⟨24, _⟩ => ⟨S10000x128, .f32⟩
  | .local _ .vmem, ⟨25, _⟩ => ⟨S10000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S128x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S600000x1_S600000x128_1_0_n_n_0_1_1128_wf : GatherDims.WF S100000x128 S600000x1 S600000x128 [1] [0] [] [0] [] 1 ![1, 128]
  dot_S10000x32_S32x128_S10000x128_1_0_0_1_n_n_wf : DotDims.WF S10000x32 S32x128 S10000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S600000x32.size a
  hwx0_0 : ∀ i : grid0.Coords, EltTy.bits .f32 = 32 ∨ (Rect.block (s := S600000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S600000x128.size a
  hwx0_1 : ∀ i : grid0.Coords, EltTy.bits .f32 = 32 ∨ (Rect.block (s := S600000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S600000x128.size a
  hwx0_4 : ∀ i : grid0.Coords, EltTy.bits .f32 = 32 ∨ (Rect.block (s := S600000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S600000x32.size a
  hwx2_0 : ∀ i : grid2.Coords, EltTy.bits .f32 = 32 ∨ (Rect.block (s := S600000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S600000x128.size a
  hwx2_1 : ∀ i : grid2.Coords, EltTy.bits .f32 = 32 ∨ (Rect.block (s := S600000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S600000x128.size a
  hwx2_4 : ∀ i : grid2.Coords, EltTy.bits .f32 = 32 ∨ (Rect.block (s := S600000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg2) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v15) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v27) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S100000x64 : Shape := ⟨2, ![100000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x128, .f32⟩
  | .hbm, ⟨24, _⟩ => ⟨S1x128, .f32⟩
  | .hbm, ⟨25, _⟩ => ⟨S600000x128, .f32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S100000x128, .f32⟩
  | .hbm, ⟨42, _⟩ => ⟨S600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S600000x128, .f32⟩
  | .hbm, ⟨58, _⟩ => ⟨S1x128, .f32⟩
  | .hbm, ⟨59, _⟩ => ⟨S600000x128, .f32⟩
  | .hbm, ⟨60, _⟩ => ⟨S600000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S100000x128, .f32⟩
  | .hbm, ⟨76, _⟩ => ⟨S600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_1 : Ref sig .tc := ⟨.hbm, 61, rfl⟩
abbrev main_v35 : Ref sig .tc := ⟨.hbm, 62, rfl⟩
abbrev main_v36 : Ref sig .tc := ⟨.hbm, 63, rfl⟩
abbrev main_c_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call2_cst : Ref sig .tc := ⟨.hbm, 71, rfl⟩
abbrev main_call2_v0 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S600000x32_S32x128_S600000x128_1_0_0_1_n_n_wf : DotDims.WF S600000x32 S32x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.FoldHost.lean ====
/-
  The buffer contents at the boundaries between the host stretches and the five kernel regions of the kernel's
  program, read back to the launch memory: the argument arrays are never written; the two index columns (the
  source column with negative entries wrapped by the node count, and the target column) are the same functions of
  the edge list at every boundary; a host gather or scatter-add result is that operation of the contents one
  boundary earlier; a region's output array is what its pipeline leaves.
-/
import proofs.«106492_j7404523618681_1_alg».proof.Proof.Gen.KernelIdeal.Frame
import Idealize.ShloMosaic.PureOps.Ideal
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The host operations' terms -/

/-- Row `0` of the edge list: the source node of every edge. -/
def srcVec (ei : (⟨S2x600000, .i32⟩ : BufTy).Contents (Elt Ideal)) : (⟨S600000, .i32⟩ : BufTy).Contents (Elt Ideal) :=
  shapeCast S600000 (extractStridedSlice S1x600000 ![0, 0] ei slices_S2x600000_S1x600000_0_0) shapeCasts_S1x600000_S600000

/-- Row `1` of the edge list: the target node of every edge. -/
def dstVec (ei : (⟨S2x600000, .i32⟩ : BufTy).Contents (Elt Ideal)) : (⟨S600000, .i32⟩ : BufTy).Contents (Elt Ideal) :=
  shapeCast S600000 (extractStridedSlice S1x600000 ![1, 0] ei slices_S2x600000_S1x600000_1_0) shapeCasts_S1x600000_S600000

/-- A vector of node numbers as a gather's index column, a negative entry `s` replaced by `s + 100000`. -/
def wrapIdx (s : (⟨S600000, .i32⟩ : BufTy).Contents (Elt Ideal)) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- A vector of node numbers as a scatter's index column. -/
def colIdx (s : (⟨S600000, .i32⟩ : BufTy).Contents (Elt Ideal)) : (⟨S600000x1, .i32⟩ : BufTy).Contents (Elt Ideal) :=
  broadcastInDim S600000x1 ![0] bcast_S600000_S600000x1_0 s

/-- The all-zero node array a scatter-add starts from. -/
def zeros : (⟨S100000x128, .f32⟩ : BufTy).Contents (Elt Ideal) :=
  broadcastInDim S100000x128 ![] bcast_S_S100000x128 (constant (F := Ideal) S_ .f32 0x00000000#32)

/-- The rows of a node array at the edges' source nodes. -/
def gatherRows (x : (⟨S100000x128, .f32⟩ : BufTy).Contents (Elt Ideal)) (s : (⟨S600000, .i32⟩ : BufTy).Contents (Elt Ideal)) :
    (⟨S600000x128, .f32⟩ : BufTy).Contents (Elt Ideal) :=
  Host.gather gather_S100000x128_S600000x1_S600000x128_1_0_n_n_0_1_1128 x (wrapIdx s)

/-- The edge rows summed into the rows of their target nodes. -/
def scatterRows (d : (⟨S600000, .i32⟩ : BufTy).Contents (Elt Ideal)) (u : (⟨S600000x128, .f32⟩ : BufTy).Contents (Elt Ideal)) :
    (⟨S100000x128, .f32⟩ : BufTy).Contents (Elt Ideal) :=
  Host.scatterAdd (F := Ideal) (φ := .f32) scatter_S100000x128_S600000x1_S600000x128_1_0_0_1 zeros (colIdx d) u

variable (m : (ℓ : Loc nD τ sig) → Buf (Elt Ideal) ℓ) (ρ : Dev nD → PrngReg)

/-- Reads a buffer after a stretch of host operations: the stretch's operation of the earlier contents where the
    stretch writes it, the earlier contents where it does not. -/
macro "host_read" : tactic =>
  `(tactic| (dsimp only [W1, W3, W5, W7, hostOps0, hostOps1, hostOps2, hostOps3]; after_results))

/-! ## After the first stretch -/

theorem W1_arg2 (c : Dev nD) : W1 m ρ c (Proc.devRef .tc main_arg2) = m ((c : Thread nD τ).loc main_arg2) := by host_read <;> rfl
theorem W1_arg3 (c : Dev nD) : W1 m ρ c (Proc.devRef .tc main_arg3) = m ((c : Thread nD τ).loc main_arg3) := by host_read <;> rfl
theorem W1_arg4 (c : Dev nD) : W1 m ρ c (Proc.devRef .tc main_arg4) = m ((c : Thread nD τ).loc main_arg4) := by host_read <;> rfl
theorem W1_v1 (c : Dev nD) : W1 m ρ c (Proc.devRef .tc main_v1) = srcVec (m ((c : Thread nD τ).loc main_arg1)) := by host_read <;> rfl
theorem W1_v3 (c : Dev nD) : W1 m ρ c (Proc.devRef .tc main_v3) = dstVec (m ((c : Thread nD τ).loc main_arg1)) := by host_read <;> rfl
theorem W1_v10 (c : Dev nD) : W1 m ρ c (Proc.devRef .tc main_v10)
    = gatherRows (m ((c : Thread nD τ).loc main_arg0)) (srcVec (m ((c : Thread nD τ).loc main_arg1))) := by host_read <;> rfl

/-! ## After region 0 -/

theorem W2_v11 (c : Dev nD) : W2 m ρ c (Proc.devRef .tc main_v11) = (dat0 (V1 m ρ) c).arrAt 4 cfg0.N := W2_arr m ρ c 4
theorem W2_arg0 (c : Dev nD) : W2 m ρ c (Proc.devRef .tc main_arg0) = m ((c : Thread nD τ).loc main_arg0) :=
  (W2_of_ne m ρ c main_arg0 (by decide)).trans (by host_read <;> rfl)
theorem W2_arg5 (c : Dev nD) : W2 m ρ c (Proc.devRef .tc main_arg5) = m ((c : Thread nD τ).loc main_arg5) :=
  (W2_of_ne m ρ c main_arg5 (by decide)).trans (by host_read <;> rfl)
theorem W2_arg6 (c : Dev nD) : W2 m ρ c (Proc.devRef .tc main_arg6) = m ((c : Thread nD τ).loc main_arg6) :=
  (W2_of_ne m ρ c main_arg6 (by decide)).trans (by host_read <;> rfl)
theorem W2_arg7 (c : Dev nD) : W2 m ρ c (Proc.devRef .tc main_arg7) = m ((c : Thread nD τ).loc main_arg7) :=
  (W2_of_ne m ρ c main_arg7 (by decide)).trans (by host_read <;> rfl)
theorem W2_arg8 (c : Dev nD) : W2 m ρ c (Proc.devRef .tc main_arg8) = m ((c : Thread nD τ).loc main_arg8) :=
  (W2_of_ne m ρ c main_arg8 (by decide)).trans (by host_read <;> rfl)
theorem W2_v1 (c : Dev nD) : W2 m ρ c (Proc.devRef .tc main_v1) = srcVec (m ((c : Thread nD τ).loc main_arg1)) :=
  (W2_of_ne m ρ c main_v1 (by decide)).trans (W1_v1 m ρ c)
theorem W2_v3 (c : Dev nD) : W2 m ρ c (Proc.devRef .tc main_v3) = dstVec (m ((c : Thread nD τ).loc main_arg1)) :=
  (W2_of_ne m ρ c main_v3 (by decide)).trans (W1_v3 m ρ c)

/-! ## After the second stretch -/

theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by host_read <;> rfl).trans (W2_arg0 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by host_read <;> rfl).trans (W2_arg5 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) by host_read <;> rfl).trans (W2_arg6 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by host_read <;> rfl).trans (W2_arg7 m ρ c)
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) by host_read <;> rfl).trans (W2_arg8 m ρ c)
theorem W3_v1 (c : Dev nD) : W3 m ρ c (Proc.devRef .tc main_v1) = srcVec (m ((c : Thread nD τ).loc main_arg1)) :=
  (show W3 m ρ c (Proc.devRef .tc main_v1) = W2 m ρ c (Proc.devRef .tc main_v1) by host_read <;> rfl).trans (W2_v1 m ρ c)
theorem W3_v3 (c : Dev nD) : W3 m ρ c (Proc.devRef .tc main_v3) = dstVec (m ((c : Thread nD τ).loc main_arg1)) :=
  (show W3 m ρ c (Proc.devRef .tc main_v3) = W2 m ρ c (Proc.devRef .tc main_v3) by host_read <;> rfl).trans (W2_v3 m ρ c)
theorem W3_v14 (c : Dev nD) : W3 m ρ c (Proc.devRef .tc main_v14)
    = scatterRows (dstVec (m ((c : Thread nD τ).loc main_arg1))) ((dat0 (V1 m ρ) c).arrAt 4 cfg0.N) :=
  (show W3 m ρ c (Proc.devRef .tc main_v14) = scatterRows (W2 m ρ c (Proc.devRef .tc main_v3)) (W2 m ρ c (Proc.devRef .tc main_v11)) by
    host_read <;> rfl).trans (congrArg₂ scatterRows (W2_v3 m ρ c) (W2_v11 m ρ c))

/-! ## After region 1 -/

theorem W4_v15 (c : Dev nD) : W4 m ρ c (Proc.devRef .tc main_v15) = (dat1 (V3 m ρ) c).arrAt 6 cfg1.N := W4_arr m ρ c 6
theorem W4_v1 (c : Dev nD) : W4 m ρ c (Proc.devRef .tc main_v1) = srcVec (m ((c : Thread nD τ).loc main_arg1)) :=
  (W4_of_ne m ρ c main_v1 (by decide)).trans (W3_v1 m ρ c)
theorem W4_v3 (c : Dev nD) : W4 m ρ c (Proc.devRef .tc main_v3) = dstVec (m ((c : Thread nD τ).loc main_arg1)) :=
  (W4_of_ne m ρ c main_v3 (by decide)).trans (W3_v3 m ρ c)

/-! ## After the third stretch -/

theorem W5_v15 (c : Dev nD) : W5 m ρ c (Proc.devRef .tc main_v15) = (dat1 (V3 m ρ) c).arrAt 6 cfg1.N :=
  (show W5 m ρ c (Proc.devRef .tc main_v15) = W4 m ρ c (Proc.devRef .tc main_v15) by host_read <;> rfl).trans (W4_v15 m ρ c)
theorem W5_v3 (c : Dev nD) : W5 m ρ c (Proc.devRef .tc main_v3) = dstVec (m ((c : Thread nD τ).loc main_arg1)) :=
  (show W5 m ρ c (Proc.devRef .tc main_v3) = W4 m ρ c (Proc.devRef .tc main_v3) by host_read <;> rfl).trans (W4_v3 m ρ c)
theorem W5_v22 (c : Dev nD) : W5 m ρ c (Proc.devRef .tc main_v22)
    = gatherRows ((dat1 (V3 m ρ) c).arrAt 6 cfg1.N) (srcVec (m ((c : Thread nD τ).loc main_arg1))) :=
  (show W5 m ρ c (Proc.devRef .tc main_v22) = gatherRows (W4 m ρ c (Proc.devRef .tc main_v15)) (W4 m ρ c (Proc.devRef .tc main_v1)) by
    host_read <;> rfl).trans (congrArg₂ gatherRows (W4_v15 m ρ c) (W4_v1 m ρ c))

/-! ## After region 2 -/

theorem W6_v23 (c : Dev nD) : W6 m ρ c (Proc.devRef .tc main_v23) = (dat2 (V5 m ρ) c).arrAt 4 cfg2.N := W6_arr m ρ c 4
theorem W6_v15 (c : Dev nD) : W6 m ρ c (Proc.devRef .tc main_v15) = (dat1 (V3 m ρ) c).arrAt 6 cfg1.N :=
  (W6_of_ne m ρ c main_v15 (by decide)).trans (W5_v15 m ρ c)
theorem W6_v3 (c : Dev nD) : W6 m ρ c (Proc.devRef .tc main_v3) = dstVec (m ((c : Thread nD τ).loc main_arg1)) :=
  (W6_of_ne m ρ c main_v3 (by decide)).trans (W5_v3 m ρ c)

/-! ## After the fourth stretch -/

theorem W7_v15 (c : Dev nD) : W7 m ρ c (Proc.devRef .tc main_v15) = (dat1 (V3 m ρ) c).arrAt 6 cfg1.N :=
  (show W7 m ρ c (Proc.devRef .tc main_v15) = W6 m ρ c (Proc.devRef .tc main_v15) by host_read <;> rfl).trans (W6_v15 m ρ c)
theorem W7_v26 (c : Dev nD) : W7 m ρ c (Proc.devRef .tc main_v26)
    = scatterRows (dstVec (m ((c : Thread nD τ).loc main_arg1))) ((dat2 (V5 m ρ) c).arrAt 4 cfg2.N) :=
  (show W7 m ρ c (Proc.devRef .tc main_v26) = scatterRows (W6 m ρ c (Proc.devRef .tc main_v3)) (W6 m ρ c (Proc.devRef .tc main_v23)) by
    host_read <;> rfl).trans (congrArg₂ scatterRows (W6_v3 m ρ c) (W6_v23 m ρ c))

/-! ## After regions 3 and 4 -/

theorem W8_v27 (c : Dev nD) : W8 m ρ c (Proc.devRef .tc main_v27) = (dat3 (V7 m ρ) c).arrAt 6 cfg3.N := W8_arr m ρ c 6
theorem W9_v28 (c : Dev nD) : W9 m ρ c (Proc.devRef .tc main_v28) = (dat4 (V8 m ρ) c).arrAt 5 cfg4.N := W9_arr m ρ c 5

/-! ## The later regions' argument arrays, read back from the last boundary -/

theorem W8_arg15 (c : Dev nD) : W8 m ρ c (Proc.devRef .tc main_arg15) = m ((c : Thread nD τ).loc main_arg15) :=
  ((W9_arr m ρ c 1).trans (((dat4 (V8 m ρ) c).arrAt_in 1 rfl _).trans (A_eq4 (V8 m ρ) c 1))).symm.trans (W9_main_arg15 m ρ c)
theorem W8_arg16 (c : Dev nD) : W8 m ρ c (Proc.devRef .tc main_arg16) = m ((c : Thread nD τ).loc main_arg16) :=
  ((W9_arr m ρ c 2).trans (((dat4 (V8 m ρ) c).arrAt_in 2 rfl _).trans (A_eq4 (V8 m ρ) c 2))).symm.trans (W9_main_arg16 m ρ c)
theorem W8_arg17 (c : Dev nD) : W8 m ρ c (Proc.devRef .tc main_arg17) = m ((c : Thread nD τ).loc main_arg17) :=
  ((W9_arr m ρ c 3).trans (((dat4 (V8 m ρ) c).arrAt_in 3 rfl _).trans (A_eq4 (V8 m ρ) c 3))).symm.trans (W9_main_arg17 m ρ c)
theorem W8_arg18 (c : Dev nD) : W8 m ρ c (Proc.devRef .tc main_arg18) = m ((c : Thread nD τ).loc main_arg18) :=
  ((W9_arr m ρ c 4).trans (((dat4 (V8 m ρ) c).arrAt_in 4 rfl _).trans (A_eq4 (V8 m ρ) c 4))).symm.trans (W9_main_arg18 m ρ c)

theorem W7_arg11 (c : Dev nD) : W7 m ρ c (Proc.devRef .tc main_arg11) = m ((c : Thread nD τ).loc main_arg11) :=
  ((W8_arr m ρ c 2).trans (((dat3 (V7 m ρ) c).arrAt_in 2 rfl _).trans (A_eq3 (V7 m ρ) c 2))).symm.trans
    ((W9_of_ne m ρ c main_arg11 (by decide)).symm.trans (W9_main_arg11 m ρ c))
theorem W7_arg12 (c : Dev nD) : W7 m ρ c (Proc.devRef .tc main_arg12) = m ((c : Thread nD τ).loc main_arg12) :=
  ((W8_arr m ρ c 3).trans (((dat3 (V7 m ρ) c).arrAt_in 3 rfl _).trans (A_eq3 (V7 m ρ) c 3))).symm.trans
    ((W9_of_ne m ρ c main_arg12 (by decide)).symm.trans (W9_main_arg12 m ρ c))
theorem W7_arg13 (c : Dev nD) : W7 m ρ c (Proc.devRef .tc main_arg13) = m ((c : Thread nD τ).loc main_arg13) :=
  ((W8_arr m ρ c 4).trans (((dat3 (V7 m ρ) c).arrAt_in 4 rfl _).trans (A_eq3 (V7 m ρ) c 4))).symm.trans
    ((W9_of_ne m ρ c main_arg13 (by decide)).symm.trans (W9_main_arg13 m ρ c))
theorem W7_arg14 (c : Dev nD) : W7 m ρ c (Proc.devRef .tc main_arg14) = m ((c : Thread nD τ).loc main_arg14) :=
  ((W8_arr m ρ c 5).trans (((dat3 (V7 m ρ) c).arrAt_in 5 rfl _).trans (A_eq3 (V7 m ρ) c 5))).symm.trans
    ((W9_of_ne m ρ c main_arg14 (by decide)).symm.trans (W9_main_arg14 m ρ c))

/-- An array no later region or stretch writes holds at the last boundary what it holds after the third stretch. -/
theorem W9_of_W7 (c : Dev nD) (b : Ref sig .tc) (h4 : ∀ w, Pipeline.arrRef spec4 w ≠ b) (h3 : ∀ w, Pipeline.arrRef spec3 w ≠ b) :
    W9 m ρ c (Proc.devRef .tc b) = W7 m ρ c (Proc.devRef .tc b) :=
  (W9_of_ne m ρ c b h4).trans (W8_of_ne m ρ c b h3)

theorem W5_arg2 (c : Dev nD) : W5 m ρ c (Proc.devRef .tc main_arg2) = m ((c : Thread nD τ).loc main_arg2) :=
  ((W6_arr m ρ c 0).trans (((dat2 (V5 m ρ) c).arrAt_in 0 rfl _).trans (A_eq2 (V5 m ρ) c 0))).symm.trans
    ((show W7 m ρ c (Proc.devRef .tc main_arg2) = W6 m ρ c (Proc.devRef .tc main_arg2) by host_read <;> rfl).symm.trans
      ((W9_of_W7 m ρ c main_arg2 (by decide) (by decide)).symm.trans (W9_main_arg2 m ρ c)))
theorem W5_arg9 (c : Dev nD) : W5 m ρ c (Proc.devRef .tc main_arg9) = m ((c : Thread nD τ).loc main_arg9) :=
  ((W6_arr m ρ c 2).trans (((dat2 (V5 m ρ) c).arrAt_in 2 rfl _).trans (A_eq2 (V5 m ρ) c 2))).symm.trans
    ((show W7 m ρ c (Proc.devRef .tc main_arg9) = W6 m ρ c (Proc.devRef .tc main_arg9) by host_read <;> rfl).symm.trans
      ((W9_of_W7 m ρ c main_arg9 (by decide) (by decide)).symm.trans (W9_main_arg9 m ρ c)))
theorem W5_arg10 (c : Dev nD) : W5 m ρ c (Proc.devRef .tc main_arg10) = m ((c : Thread nD τ).loc main_arg10) :=
  ((W6_arr m ρ c 3).trans (((dat2 (V5 m ρ) c).arrAt_in 3 rfl _).trans (A_eq2 (V5 m ρ) c 3))).symm.trans
    ((show W7 m ρ c (Proc.devRef .tc main_arg10) = W6 m ρ c (Proc.devRef .tc main_arg10) by host_read <;> rfl).symm.trans
      ((W9_of_W7 m ρ c main_arg10 (by decide) (by decide)).symm.trans (W9_main_arg10 m ρ c)))

end Cert.KernelIdeal.Fold

end
-- ==== Proof.Spec.lean ====
/-
  The mathematics of the three dense layers of a two-layer GINE network, as functions of whole arrays over the
  extended reals, for any number of rows `n`.  Every layer is ROW-LOCAL: row `r` of the result depends only on
  row `r` of the row-indexed operands (and on the whole weight matrices and bias vectors).

  * an edge message:  msg[e, j] = max (xs[e, j] + ((sum over k < 32 of ef[e, k] * We[k, j]) + be[j])) 0
  * a node update:    out[v, j] = tanh ((sum over k < 128 of a[v, k] * Wb[k, j]) + bb[j]),
                      a[v, k]   = max ((sum over l < 128 of (x[v, l] + agg[v, l]) * Wa[l, k]) + ba[k]) 0
  * the read-out:     out[v, j] = (sum over k < 128 of tanh ((sum over l < 128 of h[v, l] * W1[l, k]) + b1[k]) * W2[k, j]) + b2[j]
-/
import Idealize.ShloMosaic.PureOps.Ideal
import Idealize.ShloMosaic.Lib.ValueIdx

noncomputable section

namespace Cert.Spec

open Idealize.ShloMosaic Idealize.ShloMosaic.ValueIdx

/-- The edge message of edge row `i 0` at feature `i 1`. -/
def EdgeMsg {n : Nat} (ef : FVec Ideal ⟨2, ![n, 32]⟩ .f32) (xs : FVec Ideal ⟨2, ![n, 128]⟩ .f32)
    (We : FVec Ideal ⟨2, ![32, 128]⟩ .f32) (be : FVec Ideal ⟨1, ![128]⟩ .f32) : FVec Ideal ⟨2, ![n, 128]⟩ .f32 :=
  fun i => max (xs i + ((∑ k : Fin 32, ef (ix2 (n0 := n) (n1 := 32) (i 0) k) * We (ix2 (n0 := 32) (n1 := 128) k (i 1)))
    + be (ix1 (n := 128) (i 1)))) 0

/-- The hidden activation of node row `r` at hidden unit `k`. -/
def Hidden {n : Nat} (x agg : FVec Ideal ⟨2, ![n, 128]⟩ .f32) (Wa : FVec Ideal ⟨2, ![128, 128]⟩ .f32)
    (ba : FVec Ideal ⟨1, ![128]⟩ .f32) (r : Fin n) (k : Fin 128) : EReal :=
  max ((∑ l : Fin 128, (x (ix2 (n0 := n) (n1 := 128) r l) + agg (ix2 (n0 := n) (n1 := 128) r l)) * Wa (ix2 (n0 := 128) (n1 := 128) l k))
    + ba (ix1 (n := 128) k)) 0

/-- The node update of node row `i 0` at feature `i 1`. -/
def NodeMlp {n : Nat} (x agg : FVec Ideal ⟨2, ![n, 128]⟩ .f32) (Wa : FVec Ideal ⟨2, ![128, 128]⟩ .f32)
    (ba : FVec Ideal ⟨1, ![128]⟩ .f32) (Wb : FVec Ideal ⟨2, ![128, 128]⟩ .f32) (bb : FVec Ideal ⟨1, ![128]⟩ .f32) :
    FVec Ideal ⟨2, ![n, 128]⟩ .f32 :=
  fun i => Ideal.tanh ((∑ k : Fin 128, Hidden x agg Wa ba (i 0) k * Wb (ix2 (n0 := 128) (n1 := 128) k (i 1)))
    + bb (ix1 (n := 128) (i 1)))

/-- The read-out of node row `i 0` at output feature `i 1`. -/
def Head {n : Nat} (h : FVec Ideal ⟨2, ![n, 128]⟩ .f32) (W1 : FVec Ideal ⟨2, ![128, 128]⟩ .f32)
    (b1 : FVec Ideal ⟨1, ![128]⟩ .f32) (W2 : FVec Ideal ⟨2, ![128, 64]⟩ .f32) (b2 : FVec Ideal ⟨1, ![64]⟩ .f32) :
    FVec Ideal ⟨2, ![n, 64]⟩ .f32 :=
  fun i => (∑ k : Fin 128,
      Ideal.tanh ((∑ l : Fin 128, h (ix2 (n0 := n) (n1 := 128) (i 0) l) * W1 (ix2 (n0 := 128) (n1 := 128) l k)) + b1 (ix1 (n := 128) k))
        * W2 (ix2 (n0 := 128) (n1 := 64) k (i 1)))
    + b2 (ix1 (n := 64) (i 1))

/-! ## Row-locality: a block of rows of the result is the layer of the same block of rows of the operands -/

/-- Rows `o + p`, `p < b`, of an edge message are the edge message of those rows of `ef` and `xs`. -/
theorem EdgeMsg_rows {n b : Nat} (o : Nat) (ho : o + b ≤ n)
    (ef : FVec Ideal ⟨2, ![n, 32]⟩ .f32) (xs : FVec Ideal ⟨2, ![n, 128]⟩ .f32)
    (efb : FVec Ideal ⟨2, ![b, 32]⟩ .f32) (xsb : FVec Ideal ⟨2, ![b, 128]⟩ .f32)
    (We : FVec Ideal ⟨2, ![32, 128]⟩ .f32) (be : FVec Ideal ⟨1, ![128]⟩ .f32)
    (hef : ∀ (p : Fin b) (k : Fin 32), efb (ix2 p k) = ef (ix2 ⟨o + p.val, by have := p.isLt; omega⟩ k))
    (hxs : ∀ (p : Fin b) (q : Fin 128), xsb (ix2 p q) = xs (ix2 ⟨o + p.val, by have := p.isLt; omega⟩ q))
    (p : Fin b) (q : Fin 128) :
    EdgeMsg efb xsb We be (ix2 p q) = EdgeMsg ef xs We be (ix2 ⟨o + p.val, by have := p.isLt; omega⟩ q) := by
  unfold EdgeMsg
  show max (xsb (ix2 p q) + ((∑ k : Fin 32, efb (ix2 p k) * We (ix2 k q)) + be (ix1 q))) 0
    = max (xs (ix2 ⟨o + p.val, _⟩ q) + ((∑ k : Fin 32, ef (ix2 ⟨o + p.val, _⟩ k) * We (ix2 k q)) + be (ix1 q))) 0
  rw [hxs p q]
  simp only [hef p]

/-- Rows `o + p`, `p < b`, of a node update are the node update of those rows of `x` and `agg`. -/
theorem NodeMlp_rows {n b : Nat} (o : Nat) (ho : o + b ≤ n)
    (x agg : FVec Ideal ⟨2, ![n, 128]⟩ .f32) (xb aggb : FVec Ideal ⟨2, ![b, 128]⟩ .f32)
    (Wa : FVec Ideal ⟨2, ![128, 128]⟩ .f32) (ba : FVec Ideal ⟨1, ![128]⟩ .f32)
    (Wb : FVec Ideal ⟨2, ![128, 128]⟩ .f32) (bb : FVec Ideal ⟨1, ![128]⟩ .f32)
    (hx : ∀ (p : Fin b) (l : Fin 128), xb (ix2 p l) = x (ix2 ⟨o + p.val, by have := p.isLt; omega⟩ l))
    (hagg : ∀ (p : Fin b) (l : Fin 128), aggb (ix2 p l) = agg (ix2 ⟨o + p.val, by have := p.isLt; omega⟩ l))
    (p : Fin b) (q : Fin 128) :
    NodeMlp xb aggb Wa ba Wb bb (ix2 p q) = NodeMlp x agg Wa ba Wb bb (ix2 ⟨o + p.val, by have := p.isLt; omega⟩ q) := by
  unfold NodeMlp Hidden
  show Ideal.tanh ((∑ k : Fin 128, max ((∑ l : Fin 128, (xb (ix2 p l) + aggb (ix2 p l)) * Wa (ix2 l k)) + ba (ix1 k)) 0 * Wb (ix2 k q)) + bb (ix1 q))
    = Ideal.tanh ((∑ k : Fin 128, max ((∑ l : Fin 128, (x (ix2 ⟨o + p.val, _⟩ l) + agg (ix2 ⟨o + p.val, _⟩ l)) * Wa (ix2 l k)) + ba (ix1 k)) 0 * Wb (ix2 k q)) + bb (ix1 q))
  simp only [hx p, hagg p]

/-- Rows `o + p`, `p < b`, of the read-out are the read-out of those rows of `h`. -/
theorem Head_rows {n b : Nat} (o : Nat) (ho : o + b ≤ n)
    (h : FVec Ideal ⟨2, ![n, 128]⟩ .f32) (hb : FVec Ideal ⟨2, ![b, 128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (hh : ∀ (p : Fin b) (l : Fin 128), hb (ix2 p l) = h (ix2 ⟨o + p.val, by have := p.isLt; omega⟩ l))
    (p : Fin b) (q : Fin 64) :
    Head hb W1 b1 W2 b2 (ix2 p q) = Head h W1 b1 W2 b2 (ix2 ⟨o + p.val, by have := p.isLt; omega⟩ q) := by
  unfold Head
  show (∑ k : Fin 128, Ideal.tanh ((∑ l : Fin 128, hb (ix2 p l) * W1 (ix2 l k)) + b1 (ix1 k)) * W2 (ix2 k q)) + b2 (ix1 q)
    = (∑ k : Fin 128, Ideal.tanh ((∑ l : Fin 128, h (ix2 ⟨o + p.val, _⟩ l) * W1 (ix2 l k)) + b1 (ix1 k)) * W2 (ix2 k q)) + b2 (ix1 q)
  simp only [hh p]

end Cert.Spec

end
-- ==== Proof.Net.lean ====
/-
  The whole network as ONE function of the nineteen argument arrays: two message-passing layers — gather the source
  rows, the edge message, sum the messages into their target rows, the node update — and the read-out.
-/
import proofs.«106492_j7404523618681_1_alg».proof.Proof.FoldHost
import proofs.«106492_j7404523618681_1_alg».proof.Proof.Spec

noncomputable section

namespace Cert.KernelIdeal.Net

open Cert.KernelIdeal Cert.KernelIdeal.Fold Idealize.ShloMosaic

/-- One message-passing layer: node features `x`, the edge list `ei`, edge features `ef`, the edge layer's weights
    `We`, `be` and the node update's `Wa`, `ba`, `Wb`, `bb`. -/
def layer (x : (⟨S100000x128, .f32⟩ : BufTy).Contents (Elt Ideal)) (ei : (⟨S2x600000, .i32⟩ : BufTy).Contents (Elt Ideal))
    (ef : (⟨S600000x32, .f32⟩ : BufTy).Contents (Elt Ideal)) (We : (⟨S32x128, .f32⟩ : BufTy).Contents (Elt Ideal))
    (be : (⟨S128, .f32⟩ : BufTy).Contents (Elt Ideal)) (Wa : (⟨S128x128, .f32⟩ : BufTy).Contents (Elt Ideal))
    (ba : (⟨S128, .f32⟩ : BufTy).Contents (Elt Ideal)) (Wb : (⟨S128x128, .f32⟩ : BufTy).Contents (Elt Ideal))
    (bb : (⟨S128, .f32⟩ : BufTy).Contents (Elt Ideal)) : (⟨S100000x128, .f32⟩ : BufTy).Contents (Elt Ideal) :=
  Cert.Spec.NodeMlp (n := 100000) x
    (scatterRows (dstVec ei) (Cert.Spec.EdgeMsg (n := 600000) ef (gatherRows x (srcVec ei)) We be)) Wa ba Wb bb

/-- The network's result. -/
def net (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S32x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) (x15 : (⟨S128x128, .f32⟩ : BufTy).Contents (Elt Ideal))
    (x16 : (⟨S128, .f32⟩ : BufTy).Contents (Elt Ideal)) (x17 : (⟨S128x64, .f32⟩ : BufTy).Contents (Elt Ideal))
    (x18 : (⟨S64, .f32⟩ : BufTy).Contents (Elt Ideal)) : (⟨S100000x64, .f32⟩ : BufTy).Contents (Elt Ideal) :=
  Cert.Spec.Head (n := 100000) (layer (layer x0 x1 x2 x3 x4 x5 x6 x7 x8) x1 x2 x9 x10 x11 x12 x13 x14) x15 x16 x17 x18

end Cert.KernelIdeal.Net

end
-- ==== Proof.EdgeBody.lean ====
/-
  The edge-message block: for a block of 10000 edges, the value stored is, at edge row p and feature q,
    max (xs[p, q] + ((sum over k < 32 of ef[p, k] * We[k, q]) + be[q])) 0.
  Over the extended reals the narrowing of the two product operands is the identity, the product into the zero
  accumulator is the plain sum over the contraction coordinate, the bias row [128] -> [1, 128] -> [10000, 128]
  reads the bias at the column, and the maximum against the zero splat is max . 0.
-/
import proofs.«106492_j7404523618681_1_alg».proof.Proof.Gen.KernelIdeal.Skeleton
import proofs.«106492_j7404523618681_1_alg».proof.Proof.Spec
import Idealize.ShloMosaic.Lib.Pipeline.Value
import Idealize.ShloMosaic.Lib.ValueIdx
import Idealize.ShloMosaic.PureOps.Ideal.Laws

noncomputable section

namespace Cert.KernelIdeal.EdgeBody

open Cert.KernelIdeal Cert.KernelIdeal.Gen Idealize.ShloMosaic Idealize.ShloMosaic.ValueIdx Idealize.SL.Sem

/-! ## The block product's operand indices, axis by axis -/

theorem lhs_edge_0 (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem lhs_edge_1 (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
theorem rhs_edge_0 (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
theorem rhs_edge_1 (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- The block product into the zero accumulator at (p, q): the sum over k of a[p, k] * w[k, q]. -/
theorem product_apply (a : FVec Ideal S10000x32 .bf16) (w : FVec Ideal S32x128 .bf16) (p : Fin 10000) (q : Fin 128) :
    matmul (F := Ideal) dot_S10000x32_S32x128_S10000x128_1_0_0_1_n_n none a w (constant S10000x128 .f32 0x00000000#32) (ix2 p q)
      = ∑ k : Fin 32, a (ix2 p k) * w (ix2 k q) := by
  simp only [matmul]
  rw [Ideal.matmul_constant_zero_apply, ← Equiv.sum_comp (ValueIdx.contrEquiv1 dot_S10000x32_S32x128_S10000x128_1_0_0_1_n_n 32 rfl rfl).symm]
  refine Finset.sum_congr rfl fun k _ => ?_
  have hk := ValueIdx.contrEquiv1_symm_val dot_S10000x32_S32x128_S10000x128_1_0_0_1_n_n 32 rfl rfl k
  have el : dot_S10000x32_S32x128_S10000x128_1_0_0_1_n_n.lhsIdx (ix2 p q) ((ValueIdx.contrEquiv1 dot_S10000x32_S32x128_S10000x128_1_0_0_1_n_n 32 rfl rfl).symm k) = ix2 p k := funext fun a => Fin.ext (by
    match a with
    | ⟨0, _⟩ => exact lhs_edge_0 _ _
    | ⟨1, _⟩ => exact (lhs_edge_1 _ _).trans hk)
  have er : dot_S10000x32_S32x128_S10000x128_1_0_0_1_n_n.rhsIdx (ix2 p q) ((ValueIdx.contrEquiv1 dot_S10000x32_S32x128_S10000x128_1_0_0_1_n_n 32 rfl rfl).symm k) = ix2 k q := funext fun a => Fin.ext (by
    match a with
    | ⟨0, _⟩ => exact (rhs_edge_0 _ _).trans hk
    | ⟨1, _⟩ => exact rhs_edge_1 _ _)
  rw [el, er]

/-- The bias row [128] -> [1, 128] -> [10000, 128] at (p, q) is the bias at q. -/
theorem bias_apply (b : FVec Ideal S128 .f32) (p : Fin 10000) (q : Fin 128) :
    broadcastTo S10000x128 (shapeCast S1x128 b Facts₀.shapeCasts_S128_S1x128) Facts₀.broadcasts_S1x128_S10000x128 (ix2 p q) = b (ix1 q) := by
  rw [broadcastTo_apply (shapeCast S1x128 b Facts₀.shapeCasts_S128_S1x128) Facts₀.broadcasts_S1x128_S10000x128 (ix2 p q)
    (ix2 (n0 := 1) (n1 := 128) ⟨0, Nat.one_pos⟩ q) (fun a => match a with
      | ⟨0, _⟩ => by show (0 : Nat) = if (1 : Nat) = 1 then 0 else _; rw [if_pos rfl]
      | ⟨1, _⟩ => by show q.val = if (128 : Nat) = 1 then 0 else q.val; rw [if_neg (by decide)])]
  exact shapeCast_apply b Facts₀.shapeCasts_S128_S1x128 (ix2 (n0 := 1) (n1 := 128) ⟨0, Nat.one_pos⟩ q) (ix1 q)
    (by rewrite [Shape.rowMajor_val_two, Shape.rowMajor_val_one]; show q.val = 0 * 128 + q.val; omega)

/-- The stored block of the first edge-message region. -/
theorem pay0 (v0 : Vec Ideal S10000x32 .f32) (v2 : Vec Ideal S32x128 .f32) (v5 : Vec Ideal S128 .f32) (v9 : Vec Ideal S10000x128 .f32) :
    k0_pay1 (F := Ideal) v0 v2 v5 v9 = Cert.Spec.EdgeMsg (n := 10000) v0 v9 v2 v5 := by
  funext j
  obtain ⟨p, q, rfl⟩ : ∃ (p : Fin 10000) (q : Fin 128), j = ix2 p q := ⟨j 0, j 1, eq_ix2 j⟩
  unfold k0_pay1 Cert.Spec.EdgeMsg
  rw [maximumf_apply, addf_apply, addf_apply, broadcast_apply, shapeCast_self, product_apply, bias_apply]
  simp only [truncf_apply]
  show max _ (Ideal.ofBits .f32 0x00000000#32) = _
  rw [Ideal.ofBits_zero_f32]

/-- The stored block of the second edge-message region. -/
theorem pay2 (v0 : Vec Ideal S10000x32 .f32) (v2 : Vec Ideal S32x128 .f32) (v5 : Vec Ideal S128 .f32) (v9 : Vec Ideal S10000x128 .f32) :
    k2_pay1 (F := Ideal) v0 v2 v5 v9 = Cert.Spec.EdgeMsg (n := 10000) v0 v9 v2 v5 := by
  funext j
  obtain ⟨p, q, rfl⟩ : ∃ (p : Fin 10000) (q : Fin 128), j = ix2 p q := ⟨j 0, j 1, eq_ix2 j⟩
  unfold k2_pay1 Cert.Spec.EdgeMsg
  rw [maximumf_apply, addf_apply, addf_apply, broadcast_apply, shapeCast_self, product_apply, bias_apply]
  simp only [truncf_apply]
  show max _ (Ideal.ofBits .f32 0x00000000#32) = _
  rw [Ideal.ofBits_zero_f32]

end Cert.KernelIdeal.EdgeBody

end
-- ==== Proof.EdgeRegion.lean ====
/-
  The two edge-message regions, from blocks to the whole array.  Each of the 60 grid points t writes rows
  10000 t .. 10000 t + 9999 (all 128 columns) of the result; the edge-feature block and the gathered-row block
  move with it, the weight matrix and the bias vector are read whole at every point.  Since the edge message
  is row-local, what point t writes is rows 10000 t .. of the edge message of the whole arrays, and the 60
  blocks cover the 600000 rows: the result array IS the edge message of the whole arrays.
-/
import proofs.«106492_j7404523618681_1_alg».proof.Proof.Gen.KernelIdeal.Frame
import proofs.«106492_j7404523618681_1_alg».proof.Proof.Spec
import proofs.«106492_j7404523618681_1_alg».proof.Proof.EdgeBody
import Idealize.ShloMosaic.Lib.Pipeline.Value
import Idealize.ShloMosaic.Lib.ValueIdx

noncomputable section

namespace Cert.KernelIdeal.EdgeRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The first region -/

/-- The block index maps over the 60 points: the row-indexed windows sit at block (t, 0), the weights at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem row_lt0 (t : Fin cfg0.N) (p : Fin 10000) : 10000 * t.val + p.val < 600000 := by
  have hN : cfg0.N = 60 := N_0
  have := t.isLt; have := p.isLt; omega

/-- The edge-feature block at point t is rows 10000 t + p of the edge features. -/
theorem ef_block0 (c : Dev nD) (t : Fin cfg0.N) (p : Fin 10000) (k : Fin 32) :
    (iblk0 V c 0 t : Vec Ideal S10000x32 .f32) (ix2 p k)
      = (V c main_arg2 : S600000x32.Idx → Elt Ideal .f32) (ix2 ⟨10000 * t.val + p.val, row_lt0 t p⟩ k) := by
  obtain ⟨e0, e1, -⟩ := idx_facts0 t
  unfold iblk0
  rw [View.read_apply]
  show V c main_arg2 _ = V c main_arg2 _
  congr 1
  funext a
  apply Fin.ext
  match a with
  | ⟨0, _⟩ => show win0_0.index t 0 * 10000 + 1 * p.val = 10000 * t.val + p.val; rw [e0]; omega
  | ⟨1, _⟩ => show win0_0.index t 1 * 32 + 1 * k.val = k.val; rw [e1]; omega

/-- The gathered-row block at point t is rows 10000 t + p of the gathered rows. -/
theorem xs_block0 (c : Dev nD) (t : Fin cfg0.N) (p : Fin 10000) (q : Fin 128) :
    (iblk0 V c 1 t : Vec Ideal S10000x128 .f32) (ix2 p q)
      = (V c main_v10 : S600000x128.Idx → Elt Ideal .f32) (ix2 ⟨10000 * t.val + p.val, row_lt0 t p⟩ q) := by
  obtain ⟨-, -, e0, e1, -⟩ := idx_facts0 t
  unfold iblk0
  rw [View.read_apply]
  show V c main_v10 _ = V c main_v10 _
  congr 1
  funext a
  apply Fin.ext
  match a with
  | ⟨0, _⟩ => show win0_1.index t 0 * 10000 + 1 * p.val = 10000 * t.val + p.val; rw [e0]; omega
  | ⟨1, _⟩ => show win0_1.index t 1 * 128 + 1 * q.val = q.val; rw [e1]; omega

/-- The weight block at every point is the whole weight matrix. -/
theorem We_block0 (c : Dev nD) (t : Fin cfg0.N) :
    (iblk0 V c 2 t : Vec Ideal S32x128 .f32) = (V c main_arg3 : S32x128.Idx → Elt Ideal .f32) := by
  obtain ⟨-, -, -, -, e0, e1, -⟩ := idx_facts0 t
  funext x
  unfold iblk0
  rw [View.read_apply]
  show V c main_arg3 _ = V c main_arg3 _
  congr 1
  funext a
  apply Fin.ext
  match a with
  | ⟨0, _⟩ => show win0_2.index t 0 * 32 + 1 * (x 0).val = (x 0).val; rw [e0]; omega
  | ⟨1, _⟩ => show win0_2.index t 1 * 128 + 1 * (x 1).val = (x 1).val; rw [e1]; omega

/-- The bias block at every point is the whole bias vector. -/
theorem be_block0 (c : Dev nD) (t : Fin cfg0.N) :
    (iblk0 V c 3 t : Vec Ideal S128 .f32) = (V c main_arg4 : S128.Idx → Elt Ideal .f32) := by
  obtain ⟨-, -, -, -, -, -, e0, -⟩ := idx_facts0 t
  funext x
  unfold iblk0
  rw [View.read_apply]
  show V c main_arg4 _ = V c main_arg4 _
  congr 1
  funext a
  apply Fin.ext
  match a with
  | ⟨0, _⟩ => show win0_3.index t 0 * 128 + 1 * (x 0).val = (x 0).val; rw [e0]; omega

/-- WHAT POINT t WRITES BACK is block t of the edge message of the whole arrays. -/
theorem flushed0_eq (c : Dev nD) (t : Fin cfg0.N) :
    (dat0 (F := Ideal) V c).flushed 4 t = ((cfg0.win 4).blk t).view.read (Elt Ideal)
      (Cert.Spec.EdgeMsg (n := 600000) (V c main_arg2) (V c main_v10) (V c main_arg3) (V c main_arg4)) := by
  show (cfg0.win 4).cut (grid0.coords t) ((dat0 V c).after 4 t) = _
  rw [after0_4]
  unfold out0_4
  rw [View.canon_unit_zero hz]
  simp only [View.ld_unit_zero (S := S10000x32) hz, View.ld_unit_zero (S := S32x128) hz, View.ld_unit_zero (S := S128) hz1, View.ld_unit_zero (S := S10000x128) hz]
  rw [EdgeBody.pay0, We_block0, be_block0]
  obtain ⟨-, -, -, -, -, -, -, e0, e1⟩ := idx_facts0 t
  have hN : cfg0.N = 60 := N_0
  funext y
  obtain ⟨p, q, rfl⟩ : ∃ (p : Fin 10000) (q : Fin 128), y = ix2 p q := ⟨y 0, y 1, eq_ix2 y⟩
  have hy : ((cfg0.win 4).blk t).view.emb (ix2 p q) = (ix2 ⟨10000 * t.val + p.val, row_lt0 t p⟩ q : S600000x128.Idx) := by
    funext a
    apply Fin.ext
    match a with
    | ⟨0, _⟩ => show win0_4.index t 0 * 10000 + 1 * p.val = 10000 * t.val + p.val; rw [e0]; omega
    | ⟨1, _⟩ => show win0_4.index t 1 * 128 + 1 * q.val = q.val; rw [e1]; omega
  rw [View.read_apply]
  show Cert.Spec.EdgeMsg (n := 10000) _ _ _ _ (ix2 p q) = Cert.Spec.EdgeMsg (n := 600000) _ _ _ _ (((cfg0.win 4).blk t).view.emb (ix2 p q))
  rw [hy]
  exact Cert.Spec.EdgeMsg_rows (n := 600000) (b := 10000) (10000 * t.val) (by have := t.isLt; omega)
    (V c main_arg2) (V c main_v10) (iblk0 V c 0 t) (iblk0 V c 1 t) (V c main_arg3) (V c main_arg4)
    (fun p k => ef_block0 V c t p k) (fun p q => xs_block0 V c t p q) p q

/-- An index of the result array is in point t's block iff each coordinate is in the block's range on its axis. -/
theorem mem_blk0 (t : Fin cfg0.N) (i : S600000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v11).slice (win0_4.rect t)).set ↔ _
  rw [View.set_slice_whole, Rect.mem_set_unit]
  exact Iff.rfl

/-- Row r of the result is in the block of point r / 10000. -/
theorem cover0 (i : S600000x128.Idx) :
    ∃ t : Fin cfg0.N, (cfg0.win 4).flush t = true ∧ i ∈ ((cfg0.win 4).blk t).view.set := by
  have hN : cfg0.N = 60 := N_0
  have hi0 : (i 0).val < 600000 := (i 0).isLt
  have hi1 : (i 1).val < 128 := (i 1).isLt
  refine ⟨⟨(i 0).val / 10000, by omega⟩, flush0_4 _, ?_⟩
  obtain ⟨-, -, -, -, -, -, -, e0, e1⟩ := idx_facts0 ⟨(i 0).val / 10000, by omega⟩
  rw [mem_blk0]
  intro a
  match a with
  | ⟨0, _⟩ =>
    show win0_4.index ⟨(i 0).val / 10000, _⟩ (0 : Fin 2) * 10000 ≤ (i 0).val ∧ (i 0).val < win0_4.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_4.index ⟨(i 0).val / 10000, _⟩ (1 : Fin 2) * 128 ≤ (i 1).val ∧ (i 1).val < win0_4.index ⟨(i 0).val / 10000, _⟩ (1 : Fin 2) * 128 + 128
    rw [e1]; omega

/-- THE RESULT ARRAY of the first region is the edge message of the whole arrays. -/
theorem final0 (c : Dev nD) :
    (dat0 (F := Ideal) V c).arrAt 4 cfg0.N
      = Cert.Spec.EdgeMsg (n := 600000) (V c main_arg2) (V c main_v10) (V c main_arg3) (V c main_arg4) :=
  (dat0 (F := Ideal) V c).arrAt_eq_of_cover 4
    (Cert.Spec.EdgeMsg (n := 600000) (V c main_arg2) (V c main_v10) (V c main_arg3) (V c main_arg4))
    (fun t _ => flushed0_eq V c t) cover0

/-! ## The second region -/

/-- The block index maps over the 60 points: the row-indexed windows sit at block (t, 0), the weights at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

theorem row_lt2 (t : Fin cfg2.N) (p : Fin 10000) : 10000 * t.val + p.val < 600000 := by
  have hN : cfg2.N = 60 := N_2
  have := t.isLt; have := p.isLt; omega

/-- The edge-feature block at point t is rows 10000 t + p of the edge features. -/
theorem ef_block2 (c : Dev nD) (t : Fin cfg2.N) (p : Fin 10000) (k : Fin 32) :
    (iblk2 V c 0 t : Vec Ideal S10000x32 .f32) (ix2 p k)
      = (V c main_arg2 : S600000x32.Idx → Elt Ideal .f32) (ix2 ⟨10000 * t.val + p.val, row_lt2 t p⟩ k) := by
  obtain ⟨e0, e1, -⟩ := idx_facts2 t
  unfold iblk2
  rw [View.read_apply]
  show V c main_arg2 _ = V c main_arg2 _
  congr 1
  funext a
  apply Fin.ext
  match a with
  | ⟨0, _⟩ => show win2_0.index t 0 * 10000 + 1 * p.val = 10000 * t.val + p.val; rw [e0]; omega
  | ⟨1, _⟩ => show win2_0.index t 1 * 32 + 1 * k.val = k.val; rw [e1]; omega

/-- The gathered-row block at point t is rows 10000 t + p of the gathered rows. -/
theorem xs_block2 (c : Dev nD) (t : Fin cfg2.N) (p : Fin 10000) (q : Fin 128) :
    (iblk2 V c 1 t : Vec Ideal S10000x128 .f32) (ix2 p q)
      = (V c main_v22 : S600000x128.Idx → Elt Ideal .f32) (ix2 ⟨10000 * t.val + p.val, row_lt2 t p⟩ q) := by
  obtain ⟨-, -, e0, e1, -⟩ := idx_facts2 t
  unfold iblk2
  rw [View.read_apply]
  show V c main_v22 _ = V c main_v22 _
  congr 1
  funext a
  apply Fin.ext
  match a with
  | ⟨0, _⟩ => show win2_1.index t 0 * 10000 + 1 * p.val = 10000 * t.val + p.val; rw [e0]; omega
  | ⟨1, _⟩ => show win2_1.index t 1 * 128 + 1 * q.val = q.val; rw [e1]; omega

/-- The weight block at every point is the whole weight matrix. -/
theorem We_block2 (c : Dev nD) (t : Fin cfg2.N) :
    (iblk2 V c 2 t : Vec Ideal S32x128 .f32) = (V c main_arg9 : S32x128.Idx → Elt Ideal .f32) := by
  obtain ⟨-, -, -, -, e0, e1, -⟩ := idx_facts2 t
  funext x
  unfold iblk2
  rw [View.read_apply]
  show V c main_arg9 _ = V c main_arg9 _
  congr 1
  funext a
  apply Fin.ext
  match a with
  | ⟨0, _⟩ => show win2_2.index t 0 * 32 + 1 * (x 0).val = (x 0).val; rw [e0]; omega
  | ⟨1, _⟩ => show win2_2.index t 1 * 128 + 1 * (x 1).val = (x 1).val; rw [e1]; omega

/-- The bias block at every point is the whole bias vector. -/
theorem be_block2 (c : Dev nD) (t : Fin cfg2.N) :
    (iblk2 V c 3 t : Vec Ideal S128 .f32) = (V c main_arg10 : S128.Idx → Elt Ideal .f32) := by
  obtain ⟨-, -, -, -, -, -, e0, -⟩ := idx_facts2 t
  funext x
  unfold iblk2
  rw [View.read_apply]
  show V c main_arg10 _ = V c main_arg10 _
  congr 1
  funext a
  apply Fin.ext
  match a with
  | ⟨0, _⟩ => show win2_3.index t 0 * 128 + 1 * (x 0).val = (x 0).val; rw [e0]; omega

/-- WHAT POINT t WRITES BACK is block t of the edge message of the whole arrays. -/
theorem flushed2_eq (c : Dev nD) (t : Fin cfg2.N) :
    (dat2 (F := Ideal) V c).flushed 4 t = ((cfg2.win 4).blk t).view.read (Elt Ideal)
      (Cert.Spec.EdgeMsg (n := 600000) (V c main_arg2) (V c main_v22) (V c main_arg9) (V c main_arg10)) := by
  show (cfg2.win 4).cut (grid2.coords t) ((dat2 V c).after 4 t) = _
  rw [after2_4]
  unfold out2_4
  rw [View.canon_unit_zero hz]
  simp only [View.ld_unit_zero (S := S10000x32) hz, View.ld_unit_zero (S := S32x128) hz, View.ld_unit_zero (S := S128) hz1, View.ld_unit_zero (S := S10000x128) hz]
  rw [EdgeBody.pay2, We_block2, be_block2]
  obtain ⟨-, -, -, -, -, -, -, e0, e1⟩ := idx_facts2 t
  have hN : cfg2.N = 60 := N_2
  funext y
  obtain ⟨p, q, rfl⟩ : ∃ (p : Fin 10000) (q : Fin 128), y = ix2 p q := ⟨y 0, y 1, eq_ix2 y⟩
  have hy : ((cfg2.win 4).blk t).view.emb (ix2 p q) = (ix2 ⟨10000 * t.val + p.val, row_lt2 t p⟩ q : S600000x128.Idx) := by
    funext a
    apply Fin.ext
    match a with
    | ⟨0, _⟩ => show win2_4.index t 0 * 10000 + 1 * p.val = 10000 * t.val + p.val; rw [e0]; omega
    | ⟨1, _⟩ => show win2_4.index t 1 * 128 + 1 * q.val = q.val; rw [e1]; omega
  rw [View.read_apply]
  show Cert.Spec.EdgeMsg (n := 10000) _ _ _ _ (ix2 p q) = Cert.Spec.EdgeMsg (n := 600000) _ _ _ _ (((cfg2.win 4).blk t).view.emb (ix2 p q))
  rw [hy]
  exact Cert.Spec.EdgeMsg_rows (n := 600000) (b := 10000) (10000 * t.val) (by have := t.isLt; omega)
    (V c main_arg2) (V c main_v22) (iblk2 V c 0 t) (iblk2 V c 1 t) (V c main_arg9) (V c main_arg10)
    (fun p k => ef_block2 V c t p k) (fun p q => xs_block2 V c t p q) p q

/-- An index of the result array is in point t's block iff each coordinate is in the block's range on its axis. -/
theorem mem_blk2 (t : Fin cfg2.N) (i : S600000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v23).slice (win2_4.rect t)).set ↔ _
  rw [View.set_slice_whole, Rect.mem_set_unit]
  exact Iff.rfl

/-- Row r of the result is in the block of point r / 10000. -/
theorem cover2 (i : S600000x128.Idx) :
    ∃ t : Fin cfg2.N, (cfg2.win 4).flush t = true ∧ i ∈ ((cfg2.win 4).blk t).view.set := by
  have hN : cfg2.N = 60 := N_2
  have hi0 : (i 0).val < 600000 := (i 0).isLt
  have hi1 : (i 1).val < 128 := (i 1).isLt
  refine ⟨⟨(i 0).val / 10000, by omega⟩, flush2_4 _, ?_⟩
  obtain ⟨-, -, -, -, -, -, -, e0, e1⟩ := idx_facts2 ⟨(i 0).val / 10000, by omega⟩
  rw [mem_blk2]
  intro a
  match a with
  | ⟨0, _⟩ =>
    show win2_4.index ⟨(i 0).val / 10000, _⟩ (0 : Fin 2) * 10000 ≤ (i 0).val ∧ (i 0).val < win2_4.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, _⟩ (1 : Fin 2) * 128 ≤ (i 1).val ∧ (i 1).val < win2_4.index ⟨(i 0).val / 10000, _⟩ (1 : Fin 2) * 128 + 128
    rw [e1]; omega

/-- THE RESULT ARRAY of the second region is the edge message of the whole arrays. -/
theorem final2 (c : Dev nD) :
    (dat2 (F := Ideal) V c).arrAt 4 cfg2.N
      = Cert.Spec.EdgeMsg (n := 600000) (V c main_arg2) (V c main_v22) (V c main_arg9) (V c main_arg10) :=
  (dat2 (F := Ideal) V c).arrAt_eq_of_cover 4
    (Cert.Spec.EdgeMsg (n := 600000) (V c main_arg2) (V c main_v22) (V c main_arg9) (V c main_arg10))
    (fun t _ => flushed2_eq V c t) cover2

end Cert.KernelIdeal.EdgeRegion

end
-- ==== Proof.NodeBody.lean ====
/-
  The node-update block function: for a block of 5000 rows, the value the kernel stores is

    out[p, q] = tanh ((sum over k < 128 of a[p, k] * Wb[k, q]) + bb[q]),
    a[p, k]   = max ((sum over l < 128 of (x[p, l] + agg[p, l]) * Wa[l, k]) + ba[k]) 0,

  the node update of the mathematics file at 5000 rows.  Over the extended reals a format change is the identity, a
  product into the zero matrix is the plain sum over the contracted axis, and a bias vector cast to one row and
  broadcast over the rows reads the bias at the column.  Both dense stages have the same form, so one lemma
  (dense_at) reads either at an index.
-/
import proofs.«106492_j7404523618681_1_alg».proof.Proof.Gen.KernelIdeal.Skeleton
import proofs.«106492_j7404523618681_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeBody

open Cert.KernelIdeal Cert.KernelIdeal.Gen Idealize.ShloMosaic Idealize.ShloMosaic.ValueIdx

/-! ## The product's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 matrix times a 128 × 128 matrix, added into the zero matrix, at (p, q): the sum over the 128
    contracted positions of the products. -/
theorem prod_at (A : FVec Ideal S5000x128 .bf16) (W : FVec Ideal S128x128 .bf16) (p : Fin 5000) (q : Fin 128) :
    matmul dot_S5000x128_S128x128_S5000x128_1_0_0_1_n_n none A W (constant (F := Ideal) S5000x128 .f32 0x00000000#32) (ix2 p q)
      = ∑ k : Fin 128, A (ix2 p k) * W (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## One dense stage: a product plus a bias row -/

/-- A dense stage on a block of 5000 rows: the operand times the weights (both after the format change, which is the
    identity here), into the zero matrix, plus the bias cast to one row and broadcast over the rows. -/
def dense (A : FVec Ideal S5000x128 .f32) (W : FVec Ideal S128x128 .f32) (b : FVec Ideal S128 .f32) : FVec Ideal S5000x128 .f32 :=
  addf (matmul dot_S5000x128_S128x128_S5000x128_1_0_0_1_n_n none (truncf .bf16 A bitsLt_bf16_f32) (truncf .bf16 W bitsLt_bf16_f32)
      (constant S5000x128 .f32 0x00000000#32))
    (broadcastTo S5000x128 (shapeCast S1x128 b shapeCasts_S128_S1x128) broadcasts_S1x128_S5000x128)

/-- The dense stage at (p, q): the sum over k of A[p, k] * W[k, q], plus b[q]. -/
theorem dense_at (A : FVec Ideal S5000x128 .f32) (W : FVec Ideal S128x128 .f32) (b : FVec Ideal S128 .f32) (p : Fin 5000) (q : Fin 128) :
    dense A W b (ix2 p q) = (∑ k : Fin 128, A (ix2 p k) * W (ix2 k q)) + b (ix1 q) := by
  unfold dense
  rw [addf_apply, prod_at, broadcastTo_1b_ab_apply, shapeCast_a_1a_apply]
  rfl

/-! ## The two stored values -/

/-- The first node update's stored value is two dense stages, the first cut off below at zero, then the hyperbolic tangent. -/
theorem pay1_eq (v0 v1 : Vec Ideal S5000x128 .f32) (v5 : Vec Ideal S128x128 .f32) (v8 : Vec Ideal S128 .f32)
    (v15 : Vec Ideal S128x128 .f32) (v18 : Vec Ideal S128 .f32) :
    k1_pay1 (F := Ideal) v0 v1 v5 v8 v15 v18
      = tanh (dense (maximumf (dense (addf v0 (shapeCast S5000x128 v1 shapeCasts_S5000x128_S5000x128)) v5 v8)
          (broadcast S5000x128 (Scalar.ofBits .f32 0x00000000#32))) v15 v18) := rfl

/-- The second node update's stored value has the same form (both summands pass through an identity cast). -/
theorem pay3_eq (v0 v2 : Vec Ideal S5000x128 .f32) (v6 : Vec Ideal S128x128 .f32) (v9 : Vec Ideal S128 .f32)
    (v16 : Vec Ideal S128x128 .f32) (v19 : Vec Ideal S128 .f32) :
    k3_pay1 (F := Ideal) v0 v2 v6 v9 v16 v19
      = tanh (dense (maximumf (dense (addf (shapeCast S5000x128 v0 shapeCasts_S5000x128_S5000x128) (shapeCast S5000x128 v2 shapeCasts_S5000x128_S5000x128)) v6 v9)
          (broadcast S5000x128 (Scalar.ofBits .f32 0x00000000#32))) v16 v19) := rfl

/-- The cut-off dense stage at (p, k) is the hidden activation of the mathematics file. -/
theorem hidden_at (x agg : FVec Ideal S5000x128 .f32) (Wa : FVec Ideal S128x128 .f32) (ba : FVec Ideal S128 .f32) (p : Fin 5000) (k : Fin 128) :
    maximumf (dense (addf x agg) Wa ba) (broadcast S5000x128 (Scalar.ofBits (F := Ideal) .f32 0x00000000#32)) (ix2 p k)
      = Cert.Spec.Hidden (n := 5000) x agg Wa ba p k := by
  rw [maximumf_apply, dense_at, broadcast_apply]
  unfold Cert.Spec.Hidden
  simp only [addf_apply]
  show max _ (Ideal.ofBits .f32 0x00000000#32) = _
  rw [Ideal.ofBits_zero_f32]

/-- The hyperbolic tangent of the second dense stage over the hidden activations is the node update. -/
theorem node_at (x agg : FVec Ideal S5000x128 .f32) (Wa : FVec Ideal S128x128 .f32) (ba : FVec Ideal S128 .f32)
    (Wb : FVec Ideal S128x128 .f32) (bb : FVec Ideal S128 .f32) :
    tanh (dense (maximumf (dense (addf x agg) Wa ba) (broadcast S5000x128 (Scalar.ofBits (F := Ideal) .f32 0x00000000#32))) Wb bb)
      = Cert.Spec.NodeMlp (n := 5000) x agg Wa ba Wb bb := by
  funext j
  obtain ⟨p, q, rfl⟩ : ∃ (p : Fin 5000) (q : Fin 128), j = ix2 p q := ⟨j 0, j 1, eq_ix2 j⟩
  show Ideal.tanh (dense _ Wb bb (ix2 p q)) = _
  rw [dense_at]
  simp only [hidden_at]
  rfl

theorem pay1 (v0 v1 : Vec Ideal S5000x128 .f32) (v5 : Vec Ideal S128x128 .f32) (v8 : Vec Ideal S128 .f32)
    (v15 : Vec Ideal S128x128 .f32) (v18 : Vec Ideal S128 .f32) :
    k1_pay1 (F := Ideal) v0 v1 v5 v8 v15 v18 = Cert.Spec.NodeMlp (n := 5000) v0 v1 v5 v8 v15 v18 := by
  rw [pay1_eq, shapeCast_self, node_at]

theorem pay3 (v0 v2 : Vec Ideal S5000x128 .f32) (v6 : Vec Ideal S128x128 .f32) (v9 : Vec Ideal S128 .f32)
    (v16 : Vec Ideal S128x128 .f32) (v19 : Vec Ideal S128 .f32) :
    k3_pay1 (F := Ideal) v0 v2 v6 v9 v16 v19 = Cert.Spec.NodeMlp (n := 5000) v0 v2 v6 v9 v16 v19 := by
  rw [pay3_eq, shapeCast_self, shapeCast_self, node_at]

end Cert.KernelIdeal.NodeBody

end
-- ==== Proof.NodeRegion.lean ====
/-
  The two node-update regions, from blocks to whole arrays.  Each region runs over 20 grid points; point t reads rows
  5000 t … 5000 t + 4999 of the node features x and of the aggregated messages agg, the whole weight matrices and
  bias vectors, and writes rows 5000 t … 5000 t + 4999 of the result.  The node update is row-local, so what point t
  writes is the same block of rows of the node update of the whole arrays; the 20 blocks tile the 100000 rows, so the
  result array ends holding the node update of the whole arrays.
-/
import proofs.«106492_j7404523618681_1_alg».proof.Proof.Gen.KernelIdeal.Frame
import proofs.«106492_j7404523618681_1_alg».proof.Proof.Spec
import proofs.«106492_j7404523618681_1_alg».proof.Proof.NodeBody
import Idealize.ShloMosaic.Lib.Pipeline.Value
import Idealize.ShloMosaic.Lib.ValueIdx

noncomputable section

namespace Cert.KernelIdeal.NodeRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! # The first node update (region 1) -/

/-- The block indices over the 20 points: the windows of x, agg and the result are at block (t, 0), the weights and
    biases at block 0. -/
theorem idx1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The block of x at point t is rows 5000 t + p of x. -/
theorem blk1_0 (c : Dev nD) (t : Fin cfg1.N) (p : Fin 5000) (l : Fin 128) (h : 5000 * t.val + p.val < 100000) :
    (iblk1 V c 0 t : FVec Ideal S5000x128 .f32) (ix2 p l) = (V c main_arg0 : FVec Ideal S100000x128 .f32) (ix2 ⟨5000 * t.val + p.val, h⟩ l) := by
  obtain ⟨ht, e0, e1, -⟩ := idx1 t
  unfold iblk1
  rw [View.read_apply]
  show V c main_arg0 _ = V c main_arg0 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * l.val = l.val; rw [e1]; omega

/-- The block of agg at point t is rows 5000 t + p of agg. -/
theorem blk1_1 (c : Dev nD) (t : Fin cfg1.N) (p : Fin 5000) (l : Fin 128) (h : 5000 * t.val + p.val < 100000) :
    (iblk1 V c 1 t : FVec Ideal S5000x128 .f32) (ix2 p l) = (V c main_v14 : FVec Ideal S100000x128 .f32) (ix2 ⟨5000 * t.val + p.val, h⟩ l) := by
  obtain ⟨ht, -, -, e0, e1, -⟩ := idx1 t
  unfold iblk1
  rw [View.read_apply]
  show V c main_v14 _ = V c main_v14 _
  congr 1
  funext a
  apply Fin.ext
  match a with
  | ⟨0, _⟩ => show win1_1.index t 0 * 5000 + 1 * p.val = 5000 * t.val + p.val; rw [e0]; omega
  | ⟨1, _⟩ => show win1_1.index t 1 * 128 + 1 * l.val = l.val; rw [e1]; omega

/-- The first weight matrix is read whole at every point. -/
theorem blk1_2 (c : Dev nD) (t : Fin cfg1.N) : (iblk1 V c 2 t : FVec Ideal S128x128 .f32) = V c main_arg5 := by
  obtain ⟨-, -, -, -, -, e0, e1, -⟩ := idx1 t
  unfold iblk1
  funext y
  rw [View.read_apply]
  show V c main_arg5 _ = V c main_arg5 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The first bias vector is read whole at every point. -/
theorem blk1_3 (c : Dev nD) (t : Fin cfg1.N) : (iblk1 V c 3 t : FVec Ideal S128 .f32) = V c main_arg6 := by
  obtain ⟨-, -, -, -, -, -, -, e0, -⟩ := idx1 t
  unfold iblk1
  funext y
  rw [View.read_apply]
  show V c main_arg6 _ = V c main_arg6 y
  congr 1
  funext a
  apply Fin.ext
  match a with
  | ⟨0, _⟩ => show win1_3.index t 0 * 128 + 1 * (y 0).val = (y 0).val; rw [e0]; omega

/-- The second weight matrix is read whole at every point. -/
theorem blk1_4 (c : Dev nD) (t : Fin cfg1.N) : (iblk1 V c 4 t : FVec Ideal S128x128 .f32) = V c main_arg7 := by
  obtain ⟨-, -, -, -, -, -, -, -, e0, e1, -⟩ := idx1 t
  unfold iblk1
  funext y
  rw [View.read_apply]
  show V c main_arg7 _ = V c main_arg7 y
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The second bias vector is read whole at every point. -/
theorem blk1_5 (c : Dev nD) (t : Fin cfg1.N) : (iblk1 V c 5 t : FVec Ideal S128 .f32) = V c main_arg8 := by
  obtain ⟨-, -, -, -, -, -, -, -, -, -, e0, -⟩ := idx1 t
  unfold iblk1
  funext y
  rw [View.read_apply]
  show V c main_arg8 _ = V c main_arg8 y
  congr 1
  funext a
  apply Fin.ext
  match a with
  | ⟨0, _⟩ => show win1_5.index t 0 * 128 + 1 * (y 0).val = (y 0).val; rw [e0]; omega

/-- What point t writes back is block t of the node update of the whole arrays. -/
theorem flushed1 (c : Dev nD) (t : Fin cfg1.N) :
    (dat1 V c).flushed 6 t = ((cfg1.win 6).blk t).view.read (Elt Ideal)
      (Cert.Spec.NodeMlp (n := 100000) (V c main_arg0) (V c main_v14) (V c main_arg5) (V c main_arg6) (V c main_arg7) (V c main_arg8)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [NodeBody.pay1, blk1_2, blk1_3, blk1_4, blk1_5]
  obtain ⟨ht, -, -, -, -, -, -, -, -, -, -, e0, e1⟩ := idx1 t
  refine funext fun (y : S5000x128.Idx) => ?_
  obtain ⟨p, q, rfl⟩ : ∃ (p : Fin 5000) (q : Fin 128), y = ix2 p q := ⟨y 0, y 1, eq_ix2 y⟩
  have hb : 5000 * t.val + p.val < 100000 := by have := p.isLt; omega
  have hemb : ((cfg1.win 6).blk t).view.emb (ix2 p q) = ix2 (n0 := 100000) (n1 := 128) ⟨5000 * t.val + p.val, hb⟩ q := by
    funext a; apply Fin.ext
    match a with
    | ⟨0, _⟩ => show win1_6.index t 0 * 5000 + 1 * p.val = 5000 * t.val + p.val; rw [e0]; omega
    | ⟨1, _⟩ => show win1_6.index t 1 * 128 + 1 * q.val = q.val; rw [e1]; omega
  show Cert.Spec.NodeMlp (n := 5000) (iblk1 V c 0 t) (iblk1 V c 1 t) (V c main_arg5) (V c main_arg6) (V c main_arg7) (V c main_arg8) (ix2 p q)
    = Cert.Spec.NodeMlp (n := 100000) (V c main_arg0) (V c main_v14) (V c main_arg5) (V c main_arg6) (V c main_arg7) (V c main_arg8) (((cfg1.win 6).blk t).view.emb (ix2 p q))
  rw [hemb]
  exact Cert.Spec.NodeMlp_rows (5000 * t.val) (by omega) (V c main_arg0) (V c main_v14) (iblk1 V c 0 t) (iblk1 V c 1 t) _ _ _ _
    (fun p l => blk1_0 V c t p l _) (fun p l => blk1_1 V c t p l _) p q

/-- An index of the result array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v15).slice (win1_6.rect t)).set ↔ _
  rw [View.set_slice_whole, Rect.mem_set_unit]
  exact Iff.rfl

/-- The result array after the region: the node update of the whole arrays (row r is written by point r / 5000). -/
theorem final1 (c : Dev nD) : (dat1 V c).arrAt 6 cfg1.N
    = Cert.Spec.NodeMlp (n := 100000) (V c main_arg0) (V c main_v14) (V c main_arg5) (V c main_arg6) (V c main_arg7) (V c main_arg8) :=
  (dat1 V c).arrAt_eq_of_cover 6 _ (fun t _ => flushed1 V c t) (fun i => by
    have hi0 : (i 0).val < 100000 := (i 0).isLt
    have hi1 : (i 1).val < 128 := (i 1).isLt
    have hN : (i 0).val / 5000 < cfg1.N := by show _ < grid1.N; rw [N_1]; omega
    obtain ⟨ht, -, -, -, -, -, -, -, -, -, -, e0, e1⟩ := idx1 ⟨(i 0).val / 5000, hN⟩
    refine ⟨⟨(i 0).val / 5000, hN⟩, flush1_6 _, ?_⟩
    rw [mem_blk1]
    intro a
    match a with
    | ⟨0, _⟩ => show win1_6.index ⟨(i 0).val / 5000, hN⟩ 0 * 5000 ≤ (i 0).val ∧ (i 0).val < win1_6.index ⟨(i 0).val / 5000, hN⟩ 0 * 5000 + 5000; rw [e0]; show (i 0).val / 5000 * 5000 ≤ (i 0).val ∧ (i 0).val < (i 0).val / 5000 * 5000 + 5000; omega
    | ⟨1, _⟩ => show win1_6.index ⟨(i 0).val / 5000, hN⟩ 1 * 128 ≤ (i 1).val ∧ (i 1).val < win1_6.index ⟨(i 0).val / 5000, hN⟩ 1 * 128 + 128; rw [e1]; omega)

/-! # The second node update (region 3) -/

/-- The block indices over the 20 points: the windows of x, agg and the result are at block (t, 0), the weights and
    biases at block 0. -/
theorem idx3 : ∀ t : Fin cfg3.N, t.val < 20
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- The block of x at point t is rows 5000 t + p of x. -/
theorem blk3_0 (c : Dev nD) (t : Fin cfg3.N) (p : Fin 5000) (l : Fin 128) (h : 5000 * t.val + p.val < 100000) :
    (iblk3 V c 0 t : FVec Ideal S5000x128 .f32) (ix2 p l) = (V c main_v15 : FVec Ideal S100000x128 .f32) (ix2 ⟨5000 * t.val + p.val, h⟩ l) := by
  obtain ⟨ht, e0, e1, -⟩ := idx3 t
  unfold iblk3
  rw [View.read_apply]
  show V c main_v15 _ = V c main_v15 _
  congr 1
  funext a
  apply Fin.ext
  match a with
  | ⟨0, _⟩ => show win3_0.index t 0 * 5000 + 1 * p.val = 5000 * t.val + p.val; rw [e0]; omega
  | ⟨1, _⟩ => show win3_0.index t 1 * 128 + 1 * l.val = l.val; rw [e1]; omega

/-- The block of agg at point t is rows 5000 t + p of agg. -/
theorem blk3_1 (c : Dev nD) (t : Fin cfg3.N) (p : Fin 5000) (l : Fin 128) (h : 5000 * t.val + p.val < 100000) :
    (iblk3 V c 1 t : FVec Ideal S5000x128 .f32) (ix2 p l) = (V c main_v26 : FVec Ideal S100000x128 .f32) (ix2 ⟨5000 * t.val + p.val, h⟩ l) := by
  obtain ⟨ht, -, -, e0, e1, -⟩ := idx3 t
  unfold iblk3
  rw [View.read_apply]
  show V c main_v26 _ = V c main_v26 _
  congr 1
  funext a
  apply Fin.ext
  match a with
  | ⟨0, _⟩ => show win3_1.index t 0 * 5000 + 1 * p.val = 5000 * t.val + p.val; rw [e0]; omega
  | ⟨1, _⟩ => show win3_1.index t 1 * 128 + 1 * l.val = l.val; rw [e1]; omega

/-- The first weight matrix is read whole at every point. -/
theorem blk3_2 (c : Dev nD) (t : Fin cfg3.N) : (iblk3 V c 2 t : FVec Ideal S128x128 .f32) = V c main_arg11 := by
  obtain ⟨-, -, -, -, -, e0, e1, -⟩ := idx3 t
  unfold iblk3
  funext y
  rw [View.read_apply]
  show V c main_arg11 _ = V c main_arg11 y
  congr 1
  funext a
  apply Fin.ext
  match a with
  | ⟨0, _⟩ => show win3_2.index t 0 * 128 + 1 * (y 0).val = (y 0).val; rw [e0]; omega
  | ⟨1, _⟩ => show win3_2.index t 1 * 128 + 1 * (y 1).val = (y 1).val; rw [e1]; omega

/-- The first bias vector is read whole at every point. -/
theorem blk3_3 (c : Dev nD) (t : Fin cfg3.N) : (iblk3 V c 3 t : FVec Ideal S128 .f32) = V c main_arg12 := by
  obtain ⟨-, -, -, -, -, -, -, e0, -⟩ := idx3 t
  unfold iblk3
  funext y
  rw [View.read_apply]
  show V c main_arg12 _ = V c main_arg12 y
  congr 1
  funext a
  apply Fin.ext
  match a with
  | ⟨0, _⟩ => show win3_3.index t 0 * 128 + 1 * (y 0).val = (y 0).val; rw [e0]; omega

/-- The second weight matrix is read whole at every point. -/
theorem blk3_4 (c : Dev nD) (t : Fin cfg3.N) : (iblk3 V c 4 t : FVec Ideal S128x128 .f32) = V c main_arg13 := by
  obtain ⟨-, -, -, -, -, -, -, -, e0, e1, -⟩ := idx3 t
  unfold iblk3
  funext y
  rw [View.read_apply]
  show V c main_arg13 _ = V c main_arg13 y
  congr 1
  funext a
  apply Fin.ext
  match a with
  | ⟨0, _⟩ => show win3_4.index t 0 * 128 + 1 * (y 0).val = (y 0).val; rw [e0]; omega
  | ⟨1, _⟩ => show win3_4.index t 1 * 128 + 1 * (y 1).val = (y 1).val; rw [e1]; omega

/-- The second bias vector is read whole at every point. -/
theorem blk3_5 (c : Dev nD) (t : Fin cfg3.N) : (iblk3 V c 5 t : FVec Ideal S128 .f32) = V c main_arg14 := by
  obtain ⟨-, -, -, -, -, -, -, -, -, -, e0, -⟩ := idx3 t
  unfold iblk3
  funext y
  rw [View.read_apply]
  show V c main_arg14 _ = V c main_arg14 y
  congr 1
  funext a
  apply Fin.ext
  match a with
  | ⟨0, _⟩ => show win3_5.index t 0 * 128 + 1 * (y 0).val = (y 0).val; rw [e0]; omega

/-- What point t writes back is block t of the node update of the whole arrays. -/
theorem flushed3 (c : Dev nD) (t : Fin cfg3.N) :
    (dat3 V c).flushed 6 t = ((cfg3.win 6).blk t).view.read (Elt Ideal)
      (Cert.Spec.NodeMlp (n := 100000) (V c main_v15) (V c main_v26) (V c main_arg11) (V c main_arg12) (V c main_arg13) (V c main_arg14)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S128x128) hz2, View.ld_unit_zero (S := S128) hz1]
  rw [NodeBody.pay3, blk3_2, blk3_3, blk3_4, blk3_5]
  obtain ⟨ht, -, -, -, -, -, -, -, -, -, -, e0, e1⟩ := idx3 t
  refine funext fun (y : S5000x128.Idx) => ?_
  obtain ⟨p, q, rfl⟩ : ∃ (p : Fin 5000) (q : Fin 128), y = ix2 p q := ⟨y 0, y 1, eq_ix2 y⟩
  have hb : 5000 * t.val + p.val < 100000 := by have := p.isLt; omega
  have hemb : ((cfg3.win 6).blk t).view.emb (ix2 p q) = ix2 (n0 := 100000) (n1 := 128) ⟨5000 * t.val + p.val, hb⟩ q := by
    funext a; apply Fin.ext
    match a with
    | ⟨0, _⟩ => show win3_6.index t 0 * 5000 + 1 * p.val = 5000 * t.val + p.val; rw [e0]; omega
    | ⟨1, _⟩ => show win3_6.index t 1 * 128 + 1 * q.val = q.val; rw [e1]; omega
  show Cert.Spec.NodeMlp (n := 5000) (iblk3 V c 0 t) (iblk3 V c 1 t) (V c main_arg11) (V c main_arg12) (V c main_arg13) (V c main_arg14) (ix2 p q)
    = Cert.Spec.NodeMlp (n := 100000) (V c main_v15) (V c main_v26) (V c main_arg11) (V c main_arg12) (V c main_arg13) (V c main_arg14) (((cfg3.win 6).blk t).view.emb (ix2 p q))
  rw [hemb]
  exact Cert.Spec.NodeMlp_rows (5000 * t.val) (by omega) (V c main_v15) (V c main_v26) (iblk3 V c 0 t) (iblk3 V c 1 t) _ _ _ _
    (fun p l => blk3_0 V c t p l _) (fun p l => blk3_1 V c t p l _) p q

/-- An index of the result array is in point t's block iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v27).slice (win3_6.rect t)).set ↔ _
  rw [View.set_slice_whole, Rect.mem_set_unit]
  exact Iff.rfl

/-- The result array after the region: the node update of the whole arrays (row r is written by point r / 5000). -/
theorem final3 (c : Dev nD) : (dat3 V c).arrAt 6 cfg3.N
    = Cert.Spec.NodeMlp (n := 100000) (V c main_v15) (V c main_v26) (V c main_arg11) (V c main_arg12) (V c main_arg13) (V c main_arg14) :=
  (dat3 V c).arrAt_eq_of_cover 6 _ (fun t _ => flushed3 V c t) (fun i => by
    have hi0 : (i 0).val < 100000 := (i 0).isLt
    have hi1 : (i 1).val < 128 := (i 1).isLt
    have hN : (i 0).val / 5000 < cfg3.N := by show _ < grid3.N; rw [N_3]; omega
    obtain ⟨ht, -, -, -, -, -, -, -, -, -, -, e0, e1⟩ := idx3 ⟨(i 0).val / 5000, hN⟩
    refine ⟨⟨(i 0).val / 5000, hN⟩, flush3_6 _, ?_⟩
    rw [mem_blk3]
    intro a
    match a with
    | ⟨0, _⟩ => show win3_6.index ⟨(i 0).val / 5000, hN⟩ 0 * 5000 ≤ (i 0).val ∧ (i 0).val < win3_6.index ⟨(i 0).val / 5000, hN⟩ 0 * 5000 + 5000; rw [e0]; show (i 0).val / 5000 * 5000 ≤ (i 0).val ∧ (i 0).val < (i 0).val / 5000 * 5000 + 5000; omega
    | ⟨1, _⟩ => show win3_6.index ⟨(i 0).val / 5000, hN⟩ 1 * 128 ≤ (i 1).val ∧ (i 1).val < win3_6.index ⟨(i 0).val / 5000, hN⟩ 1 * 128 + 128; rw [e1]; omega)

end Cert.KernelIdeal.NodeRegion

end
-- ==== Proof.HeadBody.lean ====
/-
  The read-out block: one block of 5000 node rows `h`, the weights `W1 : [128, 128]`, `W2 : [128, 64]` and the biases
  `b1 : [128]`, `b2 : [64]` give

      out[p, q] = (sum over k < 128 of tanh ((sum over l < 128 of h[p, l] * W1[l, k]) + b1[k]) * W2[k, q]) + b2[q].

  Over the extended reals a change of float format is the identity, a matrix product into the zero accumulator is the
  plain sum over the inner index, a bias vector viewed as one row and repeated down the rows reads the bias at the
  column, and a reshape to the same shape is the identity. The first stage (the hidden activation) is read at an index
  first, because the second product's left operand is the whole first stage.
-/
import proofs.«106492_j7404523618681_1_alg».proof.Proof.Gen.KernelIdeal.Skeleton
import proofs.«106492_j7404523618681_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadBody

open Cert.KernelIdeal Cert.KernelIdeal.Gen Idealize.ShloMosaic Idealize.ShloMosaic.ValueIdx

/-! ## The first product, [5000, 128] times [128, 128]: its operand indices, axis by axis -/

/-- Left operand, row axis: the output row. -/
theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand, column axis: the summation index. -/
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand, row axis: the summation index. -/
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand, column axis: the output column. -/
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, read at row `p` and column `q`: the plain sum over the 128 inner indices. -/
theorem matmul1_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ## The second product, [5000, 128] times [128, 64] -/

/-- Left operand, row axis: the output row. -/
theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Left operand, column axis: the summation index. -/
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Right operand, row axis: the summation index. -/
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Right operand, column axis: the output column. -/
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into the zero accumulator, read at row `p` and column `q`: the plain sum over the 128 inner indices. -/
theorem matmul2_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## A bias vector as one row, repeated down the rows -/

/-- The bias `b : [128]` viewed `[1, 128]` and repeated over 5000 rows reads `b` at the column. -/
theorem bias128_apply (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The bias `b : [64]` viewed `[1, 64]` and repeated over 5000 rows reads `b` at the column. -/
theorem bias64_apply (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-! ## The first stage: the hidden activation of the block -/

/-- A hyperbolic tangent at an index is the extended reals' hyperbolic tangent of the element. -/
theorem tanh_apply {s : Shape} {φ : FTy} (a : FVec Ideal s φ) (i : s.Idx) : tanh a i = Ideal.tanh (a i) := rfl

/-- The hidden activation `tanh (h W1 + b1)` of the block, as the operations compute it. -/
def hidden (v0 : FVec Ideal S5000x128 .f32) (v3 : FVec Ideal S128x128 .f32) (v6 : FVec Ideal S128 .f32) : FVec Ideal S5000x128 .f32 :=
  tanh (addf
    (matmul dot_S5000x128_S128x128_S5000x128_1_0_0_1_n_n none
      (truncf .bf16 (shapeCast S5000x128 v0 shapeCasts_S5000x128_S5000x128) bitsLt_bf16_f32)
      (truncf .bf16 v3 bitsLt_bf16_f32) (constant (F := Ideal) S5000x128 .f32 0x00000000#32))
    (broadcastTo S5000x128 (shapeCast S1x128 v6 shapeCasts_S128_S1x128) broadcasts_S1x128_S5000x128))

/-- The hidden activation at row `p` and hidden unit `k`. -/
theorem hidden_apply (v0 : FVec Ideal S5000x128 .f32) (v3 : FVec Ideal S128x128 .f32) (v6 : FVec Ideal S128 .f32)
    (p : Fin 5000) (k : Fin 128) :
    hidden v0 v3 v6 (ix2 p k) = Ideal.tanh ((∑ l : Fin 128, v0 (ix2 p l) * v3 (ix2 l k)) + v6 (ix1 k)) := by
  unfold hidden
  rw [tanh_apply, addf_apply, matmul1_apply, bias128_apply, shapeCast_self]
  rfl

/-! ## The block's result -/

/-- The block's stored value is the read-out of the block's rows. -/
theorem pay4 (v0 : Vec Ideal S5000x128 .f32) (v3 : Vec Ideal S128x128 .f32) (v6 : Vec Ideal S128 .f32)
    (v12 : Vec Ideal S128x64 .f32) (v15 : Vec Ideal S64 .f32) :
    k4_pay1 (F := Ideal) v0 v3 v6 v12 v15 = Cert.Spec.Head (n := 5000) v0 v3 v6 v12 v15 := by
  funext j
  obtain ⟨p, q, rfl⟩ : ∃ (p : Fin 5000) (q : Fin 64), j = ix2 p q := ⟨j 0, j 1, eq_ix2 j⟩
  show addf
      (matmul dot_S5000x128_S128x64_S5000x64_1_0_0_1_n_n none
        (truncf .bf16 (hidden v0 v3 v6) bitsLt_bf16_f32) (truncf .bf16 v12 bitsLt_bf16_f32)
        (constant (F := Ideal) S5000x64 .f32 0x00000000#32))
      (broadcastTo S5000x64 (shapeCast S1x64 v15 shapeCasts_S64_S1x64) broadcasts_S1x64_S5000x64) (ix2 p q) = _
  rw [addf_apply, matmul2_apply, bias64_apply]
  unfold Cert.Spec.Head
  show (∑ k : Fin 128, hidden v0 v3 v6 (ix2 p k) * v12 (ix2 k q)) + v15 (ix1 q)
    = (∑ k : Fin 128, Ideal.tanh ((∑ l : Fin 128, v0 (ix2 p l) * v3 (ix2 l k)) + v6 (ix1 k)) * v12 (ix2 k q)) + v15 (ix1 q)
  simp only [hidden_apply]

end Cert.KernelIdeal.HeadBody

end
-- ==== Proof.HeadRegion.lean ====
/-
  The read-out over the whole node array. The grid has 20 points; point `t` reads rows `5000 t … 5000 t + 4999` of the
  node features `h : [100000, 128]` and the whole weights and biases, and writes rows `5000 t … 5000 t + 4999`, all 64
  columns, of the result. The read-out is row-local, so what point `t` writes is its block of rows of the read-out of
  the whole array; the 20 blocks of rows cover the array (row `r` is in the block of point `r / 5000`), so the result
  array ends holding the read-out of the whole array.
-/
import proofs.«106492_j7404523618681_1_alg».proof.Proof.Gen.KernelIdeal.Frame
import proofs.«106492_j7404523618681_1_alg».proof.Proof.Spec
import proofs.«106492_j7404523618681_1_alg».proof.Proof.HeadBody
import Idealize.ShloMosaic.Lib.Pipeline.Value
import Idealize.ShloMosaic.Lib.ValueIdx

set_option maxRecDepth 16384

noncomputable section

namespace Cert.KernelIdeal.HeadRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a rank-2 access, however spelt. -/
theorem zero2 : (![0, 0] : Fin 2 → Nat) = fun _ => 0 := funext fun a => by fin_cases a <;> rfl
/-- The zero offset of a rank-1 access. -/
theorem zero1 : (![0] : Fin 1 → Nat) = fun _ => 0 := funext fun a => by fin_cases a <;> rfl

/-- The grid has 20 points. -/
theorem point_lt (t : Fin cfg4.N) : t.val < 20 := Nat.lt_of_lt_of_eq t.isLt N_4

/-- The block indices, decided over the 20 points: the node rows and the result rows move with the point, in the
    one block of columns; the weights and biases are one block each, at every point. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-! ## The input blocks at a point -/

/-- Row `p` of point `t`'s block of node features is row `5000 t + p` of the array. -/
theorem rows_apply (c : Dev nD) (t : Fin cfg4.N) (p : Fin 5000) (l : Fin 128) :
    (iblk4 (F := Ideal) V c 0 t : FVec Ideal S5000x128 .f32) (ix2 p l)
      = (V c main_v27 : FVec Ideal ⟨2, ![100000, 128]⟩ .f32)
          (ix2 ⟨5000 * t.val + p.val, by have := point_lt t; have := p.isLt; omega⟩ l) := by
  obtain ⟨e0, e1, -⟩ := block_index t
  unfold iblk4
  rw [View.read_apply]
  show V c main_v27 (((cfg4.win 0).blk t).view.emb (ix2 p l)) = V c main_v27 _
  refine congrArg (V c main_v27) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * l.val = l.val; rw [e1]; omega

/-- The first weight matrix's block at every point is the whole matrix. -/
theorem W1_whole (c : Dev nD) (t : Fin cfg4.N) :
    (iblk4 (F := Ideal) V c 1 t : FVec Ideal S128x128 .f32) = V c main_arg15 := by
  obtain ⟨-, -, e0, e1, -⟩ := block_index t
  unfold iblk4
  refine funext fun (y : S128x128.Idx) => ?_
  rw [View.read_apply]
  show V c main_arg15 (((cfg4.win 1).blk t).view.emb y) = V c main_arg15 y
  refine congrArg (V c main_arg15) (funext fun a => Fin.ext ?_)
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- The first bias's block at every point is the whole vector. -/
theorem b1_whole (c : Dev nD) (t : Fin cfg4.N) :
    (iblk4 (F := Ideal) V c 2 t : FVec Ideal S128 .f32) = V c main_arg16 := by
  obtain ⟨-, -, -, -, e0, -⟩ := block_index t
  unfold iblk4
  refine funext fun (y : S128.Idx) => ?_
  rw [View.read_apply]
  show V c main_arg16 (((cfg4.win 2).blk t).view.emb y) = V c main_arg16 y
  refine congrArg (V c main_arg16) (funext fun a => Fin.ext ?_)
  match a with
  | ⟨0, _⟩ => show win4_2.index t (0 : Fin 1) * 128 + 1 * (y 0).val = (y 0).val; rw [e0]; omega

/-- The second weight matrix's block at every point is the whole matrix. -/
theorem W2_whole (c : Dev nD) (t : Fin cfg4.N) :
    (iblk4 (F := Ideal) V c 3 t : FVec Ideal S128x64 .f32) = V c main_arg17 := by
  obtain ⟨-, -, -, -, -, e0, e1, -⟩ := block_index t
  unfold iblk4
  refine funext fun (y : S128x64.Idx) => ?_
  rw [View.read_apply]
  show V c main_arg17 (((cfg4.win 3).blk t).view.emb y) = V c main_arg17 y
  refine congrArg (V c main_arg17) (funext fun a => Fin.ext ?_)
  match a with
  | ⟨0, _⟩ => show win4_3.index t (0 : Fin 2) * 128 + 1 * (y 0).val = (y 0).val; rw [e0]; omega
  | ⟨1, _⟩ => show win4_3.index t (1 : Fin 2) * 64 + 1 * (y 1).val = (y 1).val; rw [e1]; omega

/-- The second bias's block at every point is the whole vector. -/
theorem b2_whole (c : Dev nD) (t : Fin cfg4.N) :
    (iblk4 (F := Ideal) V c 4 t : FVec Ideal S64 .f32) = V c main_arg18 := by
  obtain ⟨-, -, -, -, -, -, -, e0, -⟩ := block_index t
  unfold iblk4
  refine funext fun (y : S64.Idx) => ?_
  rw [View.read_apply]
  show V c main_arg18 (((cfg4.win 4).blk t).view.emb y) = V c main_arg18 y
  refine congrArg (V c main_arg18) (funext fun a => Fin.ext ?_)
  match a with
  | ⟨0, _⟩ => show win4_4.index t (0 : Fin 1) * 64 + 1 * (y 0).val = (y 0).val; rw [e0]; omega

/-! ## The result block at a point -/

/-- Index `(p, q)` of point `t`'s result block is index `(5000 t + p, q)` of the result array. -/
theorem result_index (t : Fin cfg4.N) (p : Fin 5000) (q : Fin 64) :
    (((cfg4.win 5).blk t).view.emb (ix2 p q) : S100000x64.Idx)
      = ix2 (n0 := 100000) (n1 := 64) ⟨5000 * t.val + p.val, by have := point_lt t; have := p.isLt; omega⟩ q := by
  obtain ⟨-, -, -, -, -, -, -, -, e0, e1⟩ := block_index t
  refine funext fun a => Fin.ext ?_
  match a with
  | ⟨0, _⟩ => show win4_5.index t (0 : Fin 2) * 5000 + 1 * p.val = 5000 * t.val + p.val; rw [e0]; omega
  | ⟨1, _⟩ => show win4_5.index t (1 : Fin 2) * 64 + 1 * q.val = q.val; rw [e1]; omega

/-- What point `t` writes back is its block of rows of the read-out of the whole arrays. -/
theorem flushed_eq (c : Dev nD) (t : Fin cfg4.N) :
    (dat4 (F := Ideal) V c).flushed 5 t
      = ((cfg4.win 5).blk t).view.read (Elt Ideal) (Cert.Spec.Head (n := 100000) (V c main_v27) (V c main_arg15) (V c main_arg16) (V c main_arg17) (V c main_arg18)) := by
  show (cfg4.win 5).cut (grid4.coords t) ((dat4 (F := Ideal) V c).after 5 t) = _
  rw [after4_5]
  unfold out4_5
  rw [View.canon_unit_zero zero2]
  simp only [View.ld_unit_zero (S := S5000x128) zero2, View.ld_unit_zero (S := S128x128) zero2,
    View.ld_unit_zero (S := S128) zero1, View.ld_unit_zero (S := S128x64) zero2, View.ld_unit_zero (S := S64) zero1]
  rw [HeadBody.pay4, W1_whole V c t, b1_whole V c t, W2_whole V c t, b2_whole V c t]
  refine funext fun (y : S5000x64.Idx) => ?_
  obtain ⟨p, q, rfl⟩ : ∃ (p : Fin 5000) (q : Fin 64), y = ix2 p q := ⟨y 0, y 1, eq_ix2 y⟩
  rw [View.read_apply]
  show Cert.Spec.Head (n := 5000) (iblk4 (F := Ideal) V c 0 t) (V c main_arg15) (V c main_arg16) (V c main_arg17) (V c main_arg18) (ix2 p q)
    = Cert.Spec.Head (n := 100000) (V c main_v27) (V c main_arg15) (V c main_arg16) (V c main_arg17) (V c main_arg18) (((cfg4.win 5).blk t).view.emb (ix2 p q))
  rw [result_index t p q]
  exact Cert.Spec.Head_rows (5000 * t.val) (by have := point_lt t; omega) (V c main_v27) (iblk4 (F := Ideal) V c 0 t)
    (V c main_arg15) (V c main_arg16) (V c main_arg17) (V c main_arg18) (fun p l => rows_apply V c t p l) p q

/-! ## The blocks cover the result array -/

/-- An index of the result array is in point `t`'s block iff each coordinate is in the block's range on its axis. -/
theorem mem_blk (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v28).slice (win4_5.rect t)).set ↔ _
  rw [View.set_slice_whole, Rect.mem_set_unit]
  exact Iff.rfl

/-- Row `r` of the result array is in the block of point `r / 5000`, which writes back. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨-, -, -, -, -, -, -, -, e0, e1⟩ := block_index t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; rw [e0, ht]; omega
  | ⟨1, _⟩ => show win4_5.index t (1 : Fin 2) * 64 ≤ (i 1).val ∧ (i 1).val < win4_5.index t (1 : Fin 2) * 64 + 64; rw [e1]; omega

/-! ## The result array after the region -/

/-- The result array ends holding the read-out of the whole node array. -/
theorem final4 (c : Dev nD) :
    (dat4 (F := Ideal) V c).arrAt 5 cfg4.N
      = Cert.Spec.Head (n := 100000) (V c main_v27) (V c main_arg15) (V c main_arg16) (V c main_arg17) (V c main_arg18) :=
  (dat4 (F := Ideal) V c).arrAt_eq_of_cover 5 (Cert.Spec.Head (n := 100000) (V c main_v27) (V c main_arg15) (V c main_arg16) (V c main_arg17) (V c main_arg18))
    (fun t _ => flushed_eq V c t) cover

end Cert.KernelIdeal.HeadRegion

end
-- ==== Proof.KernelValue.lean ====
/-
  The kernel program's result array, after the run, is the network function of the nineteen argument arrays as
  launched: each region's output array is its layer of the region's entry contents, and the entry contents are read
  back through the host stretches to the launch memory.
-/
import proofs.«106492_j7404523618681_1_alg».proof.Proof.FoldHost
import proofs.«106492_j7404523618681_1_alg».proof.Proof.Net
import proofs.«106492_j7404523618681_1_alg».proof.Proof.EdgeRegion
import proofs.«106492_j7404523618681_1_alg».proof.Proof.NodeRegion
import proofs.«106492_j7404523618681_1_alg».proof.Proof.HeadRegion

set_option maxRecDepth 16384

noncomputable section

namespace Cert.KernelIdeal.Value

open Cert.KernelIdeal Cert.KernelIdeal.Gen Cert.KernelIdeal.Fold Cert.KernelIdeal.Net
open Idealize.ShloMosaic Idealize.ShloMosaic.TcCoe Idealize.SL.Sem

variable (m : (ℓ : Loc nD τ sig) → Buf (Elt Ideal) ℓ) (ρ : Dev nD → PrngReg)

/-- Region 0 leaves the first layer's edge messages. -/
theorem msg1 (c : Dev nD) : (dat0 (V1 m ρ) c).arrAt 4 cfg0.N
    = Cert.Spec.EdgeMsg (n := 600000) (m ((c : Thread nD τ).loc main_arg2)) (gatherRows (m ((c : Thread nD τ).loc main_arg0)) (srcVec (m ((c : Thread nD τ).loc main_arg1)))) (m ((c : Thread nD τ).loc main_arg3)) (m ((c : Thread nD τ).loc main_arg4)) := by
  rw [Cert.KernelIdeal.EdgeRegion.final0 (V1 m ρ) c]
  show Cert.Spec.EdgeMsg (n := 600000) (W1 m ρ c (Proc.devRef .tc main_arg2)) (W1 m ρ c (Proc.devRef .tc main_v10))
    (W1 m ρ c (Proc.devRef .tc main_arg3)) (W1 m ρ c (Proc.devRef .tc main_arg4)) = _
  rw [W1_arg2 m ρ c, W1_v10 m ρ c, W1_arg3 m ρ c, W1_arg4 m ρ c]

/-- Region 1 leaves the first layer's node features. -/
theorem h1 (c : Dev nD) : (dat1 (V3 m ρ) c).arrAt 6 cfg1.N
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.NodeRegion.final1 (V3 m ρ) c]
  show Cert.Spec.NodeMlp (n := 100000) (W3 m ρ c (Proc.devRef .tc main_arg0)) (W3 m ρ c (Proc.devRef .tc main_v14))
    (W3 m ρ c (Proc.devRef .tc main_arg5)) (W3 m ρ c (Proc.devRef .tc main_arg6)) (W3 m ρ c (Proc.devRef .tc main_arg7))
    (W3 m ρ c (Proc.devRef .tc main_arg8)) = _
  rw [W3_arg0 m ρ c, W3_v14 m ρ c, W3_arg5 m ρ c, W3_arg6 m ρ c, W3_arg7 m ρ c, W3_arg8 m ρ c, msg1 m ρ c]
  rfl

/-- Region 2 leaves the second layer's edge messages. -/
theorem msg2 (c : Dev nD) : (dat2 (V5 m ρ) c).arrAt 4 cfg2.N
    = Cert.Spec.EdgeMsg (n := 600000) (m ((c : Thread nD τ).loc main_arg2)) (gatherRows ((dat1 (V3 m ρ) c).arrAt 6 cfg1.N) (srcVec (m ((c : Thread nD τ).loc main_arg1)))) (m ((c : Thread nD τ).loc main_arg9)) (m ((c : Thread nD τ).loc main_arg10)) := by
  rw [Cert.KernelIdeal.EdgeRegion.final2 (V5 m ρ) c]
  show Cert.Spec.EdgeMsg (n := 600000) (W5 m ρ c (Proc.devRef .tc main_arg2)) (W5 m ρ c (Proc.devRef .tc main_v22))
    (W5 m ρ c (Proc.devRef .tc main_arg9)) (W5 m ρ c (Proc.devRef .tc main_arg10)) = _
  rw [W5_arg2 m ρ c, W5_v22 m ρ c, W5_arg9 m ρ c, W5_arg10 m ρ c]

/-- Region 3 leaves the second layer's node features. -/
theorem h2 (c : Dev nD) : (dat3 (V7 m ρ) c).arrAt 6 cfg3.N
    = layer ((dat1 (V3 m ρ) c).arrAt 6 cfg1.N) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Cert.KernelIdeal.NodeRegion.final3 (V7 m ρ) c]
  show Cert.Spec.NodeMlp (n := 100000) (W7 m ρ c (Proc.devRef .tc main_v15)) (W7 m ρ c (Proc.devRef .tc main_v26))
    (W7 m ρ c (Proc.devRef .tc main_arg11)) (W7 m ρ c (Proc.devRef .tc main_arg12)) (W7 m ρ c (Proc.devRef .tc main_arg13))
    (W7 m ρ c (Proc.devRef .tc main_arg14)) = _
  rw [W7_v15 m ρ c, W7_v26 m ρ c, W7_arg11 m ρ c, W7_arg12 m ρ c, W7_arg13 m ρ c, W7_arg14 m ρ c, msg2 m ρ c]
  rfl

/-- The result array at the last boundary is the network of the launch memory's argument arrays. -/
theorem result (c : Dev nD) : W9 m ρ c (Proc.devRef .tc main_v28)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [W9_v28 m ρ c, Cert.KernelIdeal.HeadRegion.final4 (V8 m ρ) c]
  show Cert.Spec.Head (n := 100000) (W8 m ρ c (Proc.devRef .tc main_v27)) (W8 m ρ c (Proc.devRef .tc main_arg15))
    (W8 m ρ c (Proc.devRef .tc main_arg16)) (W8 m ρ c (Proc.devRef .tc main_arg17)) (W8 m ρ c (Proc.devRef .tc main_arg18)) = _
  rw [W8_v27 m ρ c, W8_arg15 m ρ c, W8_arg16 m ρ c, W8_arg17 m ρ c, W8_arg18 m ρ c, h2 m ρ c, h1 m ρ c]
  rfl

end Cert.KernelIdeal.Value

end
-- ==== Proof.RefLayers.lean ====
/-
  The layers of the reference computation, read as the whole-array layer functions of the specification:
  each dense layer of the reference (a matrix product, a broadcast bias, a pointwise maximum with zero or a
  hyperbolic tangent) is, element by element, the corresponding layer function applied to the same operands.
  The gathered neighbour features and the scatter-added aggregates stay whole-array terms.
-/
import proofs.«106492_j7404523618681_1_alg».proof.Proof.Gen.ReferenceIdeal.Read
import proofs.«106492_j7404523618681_1_alg».proof.Proof.Spec

noncomputable section

namespace Cert.ReferenceIdeal.Layers

open Cert.ReferenceIdeal Cert.ReferenceIdeal.Read Idealize.ShloMosaic Idealize.ShloMosaic.ValueIdx

/-! ## Index identities

  At the result position (p, q), the k-th term of a matrix product reads its left operand at (p, k) and its
  right operand at (k, q); a bias broadcast along the rows is read at q. -/

theorem lidx4 (p : Fin 600000) (q : Fin 128) (k : Fin 32) :
    lidx_main_v4 (ix2 p q) k = ix2 p k :=
  funext fun a => Fin.ext (by match a with | ⟨0, _⟩ => rfl | ⟨1, _⟩ => rfl)

theorem ridx4 (p : Fin 600000) (q : Fin 128) (k : Fin 32) :
    ridx_main_v4 (ix2 p q) k = ix2 k q :=
  funext fun a => Fin.ext (by match a with | ⟨0, _⟩ => rfl | ⟨1, _⟩ => rfl)

theorem lidx31 (p : Fin 600000) (q : Fin 128) (k : Fin 32) :
    lidx_main_v31 (ix2 p q) k = ix2 p k :=
  funext fun a => Fin.ext (by match a with | ⟨0, _⟩ => rfl | ⟨1, _⟩ => rfl)

theorem ridx31 (p : Fin 600000) (q : Fin 128) (k : Fin 32) :
    ridx_main_v31 (ix2 p q) k = ix2 k q :=
  funext fun a => Fin.ext (by match a with | ⟨0, _⟩ => rfl | ⟨1, _⟩ => rfl)

theorem lidx21 (p : Fin 100000) (q : Fin 128) (k : Fin 128) :
    lidx_main_v21 (ix2 p q) k = ix2 p k :=
  funext fun a => Fin.ext (by match a with | ⟨0, _⟩ => rfl | ⟨1, _⟩ => rfl)

theorem ridx21 (p : Fin 100000) (q : Fin 128) (k : Fin 128) :
    ridx_main_v21 (ix2 p q) k = ix2 k q :=
  funext fun a => Fin.ext (by match a with | ⟨0, _⟩ => rfl | ⟨1, _⟩ => rfl)

theorem lidx26 (p : Fin 100000) (q : Fin 128) (k : Fin 128) :
    lidx_main_v26 (ix2 p q) k = ix2 p k :=
  funext fun a => Fin.ext (by match a with | ⟨0, _⟩ => rfl | ⟨1, _⟩ => rfl)

theorem ridx26 (p : Fin 100000) (q : Fin 128) (k : Fin 128) :
    ridx_main_v26 (ix2 p q) k = ix2 k q :=
  funext fun a => Fin.ext (by match a with | ⟨0, _⟩ => rfl | ⟨1, _⟩ => rfl)

theorem lidx48 (p : Fin 100000) (q : Fin 128) (k : Fin 128) :
    lidx_main_v48 (ix2 p q) k = ix2 p k :=
  funext fun a => Fin.ext (by match a with | ⟨0, _⟩ => rfl | ⟨1, _⟩ => rfl)

theorem ridx48 (p : Fin 100000) (q : Fin 128) (k : Fin 128) :
    ridx_main_v48 (ix2 p q) k = ix2 k q :=
  funext fun a => Fin.ext (by match a with | ⟨0, _⟩ => rfl | ⟨1, _⟩ => rfl)

theorem lidx53 (p : Fin 100000) (q : Fin 128) (k : Fin 128) :
    lidx_main_v53 (ix2 p q) k = ix2 p k :=
  funext fun a => Fin.ext (by match a with | ⟨0, _⟩ => rfl | ⟨1, _⟩ => rfl)

theorem ridx53 (p : Fin 100000) (q : Fin 128) (k : Fin 128) :
    ridx_main_v53 (ix2 p q) k = ix2 k q :=
  funext fun a => Fin.ext (by match a with | ⟨0, _⟩ => rfl | ⟨1, _⟩ => rfl)

theorem lidx58 (p : Fin 100000) (q : Fin 128) (k : Fin 128) :
    lidx_main_v58 (ix2 p q) k = ix2 p k :=
  funext fun a => Fin.ext (by match a with | ⟨0, _⟩ => rfl | ⟨1, _⟩ => rfl)

theorem ridx58 (p : Fin 100000) (q : Fin 128) (k : Fin 128) :
    ridx_main_v58 (ix2 p q) k = ix2 k q :=
  funext fun a => Fin.ext (by match a with | ⟨0, _⟩ => rfl | ⟨1, _⟩ => rfl)

theorem lidx63 (p : Fin 100000) (q : Fin 64) (k : Fin 128) :
    lidx_main_v63 (ix2 p q) k = ix2 p k :=
  funext fun a => Fin.ext (by match a with | ⟨0, _⟩ => rfl | ⟨1, _⟩ => rfl)

theorem ridx63 (p : Fin 100000) (q : Fin 64) (k : Fin 128) :
    ridx_main_v63 (ix2 p q) k = ix2 k q :=
  funext fun a => Fin.ext (by match a with | ⟨0, _⟩ => rfl | ⟨1, _⟩ => rfl)

theorem bias6 (p : Fin 600000) (q : Fin 128) :
    idx_main_v5 (idx_main_v6 (ix2 p q)) = ix1 q :=
  funext fun a => Fin.ext (by match a with | ⟨0, _⟩ => rfl)

theorem bias33 (p : Fin 600000) (q : Fin 128) :
    idx_main_v32 (idx_main_v33 (ix2 p q)) = ix1 q :=
  funext fun a => Fin.ext (by match a with | ⟨0, _⟩ => rfl)

theorem bias23 (p : Fin 100000) (q : Fin 128) :
    idx_main_v22 (idx_main_v23 (ix2 p q)) = ix1 q :=
  funext fun a => Fin.ext (by match a with | ⟨0, _⟩ => rfl)

theorem bias28 (p : Fin 100000) (q : Fin 128) :
    idx_main_v27 (idx_main_v28 (ix2 p q)) = ix1 q :=
  funext fun a => Fin.ext (by match a with | ⟨0, _⟩ => rfl)

theorem bias50 (p : Fin 100000) (q : Fin 128) :
    idx_main_v49 (idx_main_v50 (ix2 p q)) = ix1 q :=
  funext fun a => Fin.ext (by match a with | ⟨0, _⟩ => rfl)

theorem bias55 (p : Fin 100000) (q : Fin 128) :
    idx_main_v54 (idx_main_v55 (ix2 p q)) = ix1 q :=
  funext fun a => Fin.ext (by match a with | ⟨0, _⟩ => rfl)

theorem bias60 (p : Fin 100000) (q : Fin 128) :
    idx_main_v59 (idx_main_v60 (ix2 p q)) = ix1 q :=
  funext fun a => Fin.ext (by match a with | ⟨0, _⟩ => rfl)

theorem bias65 (p : Fin 100000) (q : Fin 64) :
    idx_main_v64 (idx_main_v65 (ix2 p q)) = ix1 q :=
  funext fun a => Fin.ext (by match a with | ⟨0, _⟩ => rfl)

/-! ## The five layers -/

/-- The first edge message of the reference is the edge-message layer of the edge features, the gathered
    node features, and the first edge weights and bias. -/
theorem edge1
    (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) :
    val_main_v16 (F := Ideal) x0 x1 x2 x3 x4
      = Cert.Spec.EdgeMsg (n := 600000) x2 (val_main_v14 (F := Ideal) x0 x1) x3 x4 := by
  funext i
  obtain ⟨p, q, rfl⟩ : ∃ p q, i = ix2 p q := ⟨i 0, i 1, eq_ix2 i⟩
  rw [val_main_v16_apply, val_main_v15_apply, val_main_v7_apply, val_main_v4_apply, val_main_v6_apply,
    val_main_v5_apply, val_main_call0_v0_apply, val_main_call0_cst_apply]
  generalize val_main_v14 (F := Ideal) x0 x1 = g
  simp only [lidx4, ridx4, bias6, Ideal.addf_def, Ideal.maximumf_def, Ideal.hostUnary_tanh_def, Ideal.ofBits_def, Ideal.ofBits_zero_f32]
  unfold Cert.Spec.EdgeMsg
  rfl

/-- The first node update of the reference is the node-update layer of the node features, the first
    scatter-added aggregate, and the first pair of node weights and biases. -/
theorem node1
    (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v30 (F := Ideal) x0 x1 x2 x3 x4 x5 x6 x7 x8
      = Cert.Spec.NodeMlp (n := 100000) x0 (val_main_v19 (F := Ideal) x0 x1 x2 x3 x4) x5 x6 x7 x8 := by
  funext i
  obtain ⟨p, q, rfl⟩ : ∃ p q, i = ix2 p q := ⟨i 0, i 1, eq_ix2 i⟩
  rw [val_main_v30_apply, val_main_v29_apply, val_main_v26_apply, val_main_v28_apply, val_main_v27_apply]
  simp only [val_main_v25_apply, val_main_v24_apply, val_main_v21_apply, val_main_v23_apply, val_main_v22_apply,
    val_main_v20_apply, val_main_call1_v0_apply, val_main_call1_cst_apply]
  generalize val_main_v19 (F := Ideal) x0 x1 x2 x3 x4 = g
  simp only [lidx26, ridx26, bias28, lidx21, ridx21, bias23, Ideal.addf_def, Ideal.maximumf_def, Ideal.hostUnary_tanh_def, Ideal.ofBits_def, Ideal.ofBits_zero_f32]
  unfold Cert.Spec.NodeMlp Cert.Spec.Hidden
  rfl

/-- The second edge message of the reference is the edge-message layer of the edge features, the gathered
    first-layer node features, and the second edge weights and bias. -/
theorem edge2
    (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S32x128, .f32⟩ : BufTy).Contents (Elt Ideal))
    (x10 : (⟨S128, .f32⟩ : BufTy).Contents (Elt Ideal)) :
    val_main_v43 (F := Ideal) x0 x1 x2 x3 x4 x5 x6 x7 x8 x9 x10
      = Cert.Spec.EdgeMsg (n := 600000) x2 (val_main_v41 (F := Ideal) x0 x1 x2 x3 x4 x5 x6 x7 x8) x9 x10 := by
  funext i
  obtain ⟨p, q, rfl⟩ : ∃ p q, i = ix2 p q := ⟨i 0, i 1, eq_ix2 i⟩
  rw [val_main_v43_apply, val_main_v42_apply, val_main_v34_apply, val_main_v31_apply, val_main_v33_apply,
    val_main_v32_apply, val_main_call2_v0_apply, val_main_call2_cst_apply]
  generalize val_main_v41 (F := Ideal) x0 x1 x2 x3 x4 x5 x6 x7 x8 = g
  simp only [lidx31, ridx31, bias33, Ideal.addf_def, Ideal.maximumf_def, Ideal.hostUnary_tanh_def, Ideal.ofBits_def, Ideal.ofBits_zero_f32]
  unfold Cert.Spec.EdgeMsg
  rfl

/-- The second node update of the reference is the node-update layer of the first-layer node features, the
    second scatter-added aggregate, and the second pair of node weights and biases. -/
theorem node2
    (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S32x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) :
    val_main_v57 (F := Ideal) x0 x1 x2 x3 x4 x5 x6 x7 x8 x9 x10 x11 x12 x13 x14
      = Cert.Spec.NodeMlp (n := 100000) (val_main_v30 (F := Ideal) x0 x1 x2 x3 x4 x5 x6 x7 x8)
          (val_main_v46 (F := Ideal) x0 x1 x2 x3 x4 x5 x6 x7 x8 x9 x10) x11 x12 x13 x14 := by
  funext i
  obtain ⟨p, q, rfl⟩ : ∃ p q, i = ix2 p q := ⟨i 0, i 1, eq_ix2 i⟩
  rw [val_main_v57_apply, val_main_v56_apply, val_main_v53_apply, val_main_v55_apply, val_main_v54_apply]
  simp only [val_main_v52_apply, val_main_v51_apply, val_main_v48_apply, val_main_v50_apply, val_main_v49_apply,
    val_main_v47_apply, val_main_call3_v0_apply, val_main_call3_cst_apply]
  generalize val_main_v30 (F := Ideal) x0 x1 x2 x3 x4 x5 x6 x7 x8 = h
  generalize val_main_v46 (F := Ideal) x0 x1 x2 x3 x4 x5 x6 x7 x8 x9 x10 = g
  simp only [lidx53, ridx53, bias55, lidx48, ridx48, bias50, Ideal.addf_def, Ideal.maximumf_def, Ideal.hostUnary_tanh_def, Ideal.ofBits_def, Ideal.ofBits_zero_f32]
  unfold Cert.Spec.NodeMlp Cert.Spec.Hidden
  rfl

/-- The read-out of the reference is the read-out layer of the second-layer node features and the two
    read-out weights and biases. -/
theorem head
    (x0 : (⟨S100000x128, .f32⟩ : BufTy).Contents (Elt Ideal)) (x1 : (⟨S2x600000, .i32⟩ : BufTy).Contents (Elt Ideal))
    (x2 : (⟨S600000x32, .f32⟩ : BufTy).Contents (Elt Ideal)) (x3 : (⟨S32x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S32x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) (x15 : (⟨S128x128, .f32⟩ : BufTy).Contents (Elt Ideal))
    (x16 : (⟨S128, .f32⟩ : BufTy).Contents (Elt Ideal)) (x17 : (⟨S128x64, .f32⟩ : BufTy).Contents (Elt Ideal))
    (x18 : (⟨S64, .f32⟩ : BufTy).Contents (Elt Ideal)) :
    val_main_v66 (F := Ideal) x0 x1 x2 x3 x4 x5 x6 x7 x8 x9 x10 x11 x12 x13 x14 x15 x16 x17 x18
      = Cert.Spec.Head (n := 100000) (val_main_v57 (F := Ideal) x0 x1 x2 x3 x4 x5 x6 x7 x8 x9 x10 x11 x12 x13 x14) x15 x16 x17 x18 := by
  funext i
  obtain ⟨p, q, rfl⟩ : ∃ p q, i = ix2 p q := ⟨i 0, i 1, eq_ix2 i⟩
  rw [val_main_v66_apply, val_main_v63_apply, val_main_v65_apply, val_main_v64_apply]
  simp only [val_main_v62_apply, val_main_v61_apply, val_main_v58_apply, val_main_v60_apply, val_main_v59_apply]
  generalize val_main_v57 (F := Ideal) x0 x1 x2 x3 x4 x5 x6 x7 x8 x9 x10 x11 x12 x13 x14 = h
  simp only [lidx63, ridx63, bias65, lidx58, ridx58, bias60, Ideal.addf_def, Ideal.maximumf_def, Ideal.hostUnary_tanh_def, Ideal.ofBits_def, Ideal.ofBits_zero_f32]
  unfold Cert.Spec.Head
  rfl

end Cert.ReferenceIdeal.Layers

end
-- ==== Proof.Bridge.lean ====
/-
  The network, as one function of the nineteen argument arrays, is the reference's result: layer by layer, the
  reference's dense layers are the layer functions of the specification, and its gathers and scatter-adds are the
  network's gather of source rows and sum into target rows, taken with the same index columns.
-/
import proofs.«106492_j7404523618681_1_alg».proof.Proof.Net
import proofs.«106492_j7404523618681_1_alg».proof.Proof.RefLayers

noncomputable section

namespace Cert.Bridge

open Cert.KernelIdeal.Fold Cert.KernelIdeal.Net Cert.ReferenceIdeal.Read Cert.ReferenceIdeal.Layers
open Idealize.ShloMosaic Idealize.ShloMosaic.StableHlo

/-! ## The index columns and the zero array -/

/-- The wrapped source column is the index column of the reference's first gather. -/
theorem wrap_src_v13 (x1 : (⟨Cert.KernelIdeal.S2x600000, .i32⟩ : BufTy).Contents (Elt Ideal)) :
    wrapIdx (srcVec x1) = val_main_v13 (F := Ideal) x1 := by
  unfold wrapIdx srcVec val_main_v13 val_main_v12 val_main_v9 val_main_v11 val_main_v8 val_main_v10 val_main_c
    val_main_c_0 val_main_v1 val_main_v0
  rfl

/-- The wrapped source column is the index column of the reference's second gather. -/
theorem wrap_src_v40 (x1 : (⟨Cert.KernelIdeal.S2x600000, .i32⟩ : BufTy).Contents (Elt Ideal)) :
    wrapIdx (srcVec x1) = val_main_v40 (F := Ideal) x1 := by
  unfold wrapIdx srcVec val_main_v40 val_main_v39 val_main_v36 val_main_v38 val_main_v35 val_main_v37 val_main_c_1
    val_main_c_2 val_main_v1 val_main_v0
  rfl

/-- The target column is the index column of the reference's first scatter-add. -/
theorem col_dst_v18 (x1 : (⟨Cert.KernelIdeal.S2x600000, .i32⟩ : BufTy).Contents (Elt Ideal)) :
    colIdx (dstVec x1) = val_main_v18 (F := Ideal) x1 := by
  unfold colIdx dstVec val_main_v18 val_main_v3 val_main_v2
  rfl

/-- The target column is the index column of the reference's second scatter-add. -/
theorem col_dst_v45 (x1 : (⟨Cert.KernelIdeal.S2x600000, .i32⟩ : BufTy).Contents (Elt Ideal)) :
    colIdx (dstVec x1) = val_main_v45 (F := Ideal) x1 := by
  unfold colIdx dstVec val_main_v45 val_main_v3 val_main_v2
  rfl

/-- The zero array is the initial array of the reference's first scatter-add. -/
theorem zeros_v17 : zeros = val_main_v17 (F := Ideal) := by
  unfold zeros val_main_v17 val_main_cst
  rfl

/-- The zero array is the initial array of the reference's second scatter-add. -/
theorem zeros_v44 : zeros = val_main_v44 (F := Ideal) := by
  unfold zeros val_main_v44 val_main_cst_3
  rfl

/-! ## The gathers and the scatter-adds, for any operand -/

theorem gather_v13 (x : (⟨Cert.KernelIdeal.S100000x128, .f32⟩ : BufTy).Contents (Elt Ideal)) (x1 : (⟨Cert.KernelIdeal.S2x600000, .i32⟩ : BufTy).Contents (Elt Ideal)) :
    gatherRows x (srcVec x1) = Host.gather Cert.ReferenceIdeal.gather_S100000x128_S600000x1_S600000x128_1_0_n_n_0_1_1128 x (val_main_v13 (F := Ideal) x1) := by
  unfold gatherRows
  rw [wrap_src_v13]
  rfl

theorem gather_v40 (x : (⟨Cert.KernelIdeal.S100000x128, .f32⟩ : BufTy).Contents (Elt Ideal)) (x1 : (⟨Cert.KernelIdeal.S2x600000, .i32⟩ : BufTy).Contents (Elt Ideal)) :
    gatherRows x (srcVec x1) = Host.gather Cert.ReferenceIdeal.gather_S100000x128_S600000x1_S600000x128_1_0_n_n_0_1_1128 x (val_main_v40 (F := Ideal) x1) := by
  unfold gatherRows
  rw [wrap_src_v40]
  rfl

theorem scatter_v18 (x1 : (⟨Cert.KernelIdeal.S2x600000, .i32⟩ : BufTy).Contents (Elt Ideal)) (u : (⟨Cert.KernelIdeal.S600000x128, .f32⟩ : BufTy).Contents (Elt Ideal)) :
    scatterRows (dstVec x1) u
      = Host.scatterAdd (F := Ideal) (φ := .f32) Cert.ReferenceIdeal.scatter_S100000x128_S600000x1_S600000x128_1_0_0_1 (val_main_v17 (F := Ideal)) (val_main_v18 (F := Ideal) x1) u := by
  unfold scatterRows
  rw [col_dst_v18, zeros_v17]
  rfl

theorem scatter_v45 (x1 : (⟨Cert.KernelIdeal.S2x600000, .i32⟩ : BufTy).Contents (Elt Ideal)) (u : (⟨Cert.KernelIdeal.S600000x128, .f32⟩ : BufTy).Contents (Elt Ideal)) :
    scatterRows (dstVec x1) u
      = Host.scatterAdd (F := Ideal) (φ := .f32) Cert.ReferenceIdeal.scatter_S100000x128_S600000x1_S600000x128_1_0_0_1 (val_main_v44 (F := Ideal)) (val_main_v45 (F := Ideal) x1) u := by
  unfold scatterRows
  rw [col_dst_v45, zeros_v44]
  rfl

/-! ## The two message-passing layers -/

/-- The first layer of the network is the reference's first node update. -/
theorem layer1_eq
    (x0 : (⟨Cert.KernelIdeal.S100000x128, .f32⟩ : BufTy).Contents (Elt Ideal)) (x1 : (⟨Cert.KernelIdeal.S2x600000, .i32⟩ : BufTy).Contents (Elt Ideal))
    (x2 : (⟨Cert.KernelIdeal.S600000x32, .f32⟩ : BufTy).Contents (Elt Ideal)) (x3 : (⟨Cert.KernelIdeal.S32x128, .f32⟩ : BufTy).Contents (Elt Ideal))
    (x4 : (⟨Cert.KernelIdeal.S128, .f32⟩ : BufTy).Contents (Elt Ideal)) (x5 : (⟨Cert.KernelIdeal.S128x128, .f32⟩ : BufTy).Contents (Elt Ideal))
    (x6 : (⟨Cert.KernelIdeal.S128, .f32⟩ : BufTy).Contents (Elt Ideal)) (x7 : (⟨Cert.KernelIdeal.S128x128, .f32⟩ : BufTy).Contents (Elt Ideal))
    (x8 : (⟨Cert.KernelIdeal.S128, .f32⟩ : BufTy).Contents (Elt Ideal)) :
    layer x0 x1 x2 x3 x4 x5 x6 x7 x8 = val_main_v30 (F := Ideal) x0 x1 x2 x3 x4 x5 x6 x7 x8 := by
  rw [node1]
  unfold val_main_v19
  rw [edge1]
  unfold val_main_v14 layer
  rw [gather_v13, scatter_v18]

/-- The second layer of the network, over any first-layer node features, with the reference's second gather and
    scatter-add. -/
theorem layer2_eq (h : (⟨Cert.KernelIdeal.S100000x128, .f32⟩ : BufTy).Contents (Elt Ideal))
    (x1 : (⟨Cert.KernelIdeal.S2x600000, .i32⟩ : BufTy).Contents (Elt Ideal)) (x2 : (⟨Cert.KernelIdeal.S600000x32, .f32⟩ : BufTy).Contents (Elt Ideal))
    (x9 : (⟨Cert.KernelIdeal.S32x128, .f32⟩ : BufTy).Contents (Elt Ideal)) (x10 : (⟨Cert.KernelIdeal.S128, .f32⟩ : BufTy).Contents (Elt Ideal))
    (x11 : (⟨Cert.KernelIdeal.S128x128, .f32⟩ : BufTy).Contents (Elt Ideal)) (x12 : (⟨Cert.KernelIdeal.S128, .f32⟩ : BufTy).Contents (Elt Ideal))
    (x13 : (⟨Cert.KernelIdeal.S128x128, .f32⟩ : BufTy).Contents (Elt Ideal)) (x14 : (⟨Cert.KernelIdeal.S128, .f32⟩ : BufTy).Contents (Elt Ideal)) :
    layer h x1 x2 x9 x10 x11 x12 x13 x14
      = Cert.Spec.NodeMlp (n := 100000) h
          (Host.scatterAdd (F := Ideal) (φ := .f32) Cert.ReferenceIdeal.scatter_S100000x128_S600000x1_S600000x128_1_0_0_1 (val_main_v44 (F := Ideal)) (val_main_v45 (F := Ideal) x1)
            (Cert.Spec.EdgeMsg (n := 600000) x2 (Host.gather Cert.ReferenceIdeal.gather_S100000x128_S600000x1_S600000x128_1_0_n_n_0_1_1128 h (val_main_v40 (F := Ideal) x1)) x9 x10))
          x11 x12 x13 x14 := by
  unfold layer
  rw [gather_v40, scatter_v45]

/-! ## The network -/

/-- The network's result is the reference's result. -/
theorem net_eq_ref
    (x0 : (⟨Cert.KernelIdeal.S100000x128, .f32⟩ : BufTy).Contents (Elt Ideal)) (x1 : (⟨Cert.KernelIdeal.S2x600000, .i32⟩ : BufTy).Contents (Elt Ideal))
    (x2 : (⟨Cert.KernelIdeal.S600000x32, .f32⟩ : BufTy).Contents (Elt Ideal)) (x3 : (⟨Cert.KernelIdeal.S32x128, .f32⟩ : BufTy).Contents (Elt Ideal))
    (x4 : (⟨Cert.KernelIdeal.S128, .f32⟩ : BufTy).Contents (Elt Ideal)) (x5 : (⟨Cert.KernelIdeal.S128x128, .f32⟩ : BufTy).Contents (Elt Ideal))
    (x6 : (⟨Cert.KernelIdeal.S128, .f32⟩ : BufTy).Contents (Elt Ideal)) (x7 : (⟨Cert.KernelIdeal.S128x128, .f32⟩ : BufTy).Contents (Elt Ideal))
    (x8 : (⟨Cert.KernelIdeal.S128, .f32⟩ : BufTy).Contents (Elt Ideal)) (x9 : (⟨Cert.KernelIdeal.S32x128, .f32⟩ : BufTy).Contents (Elt Ideal))
    (x10 : (⟨Cert.KernelIdeal.S128, .f32⟩ : BufTy).Contents (Elt Ideal)) (x11 : (⟨Cert.KernelIdeal.S128x128, .f32⟩ : BufTy).Contents (Elt Ideal))
    (x12 : (⟨Cert.KernelIdeal.S128, .f32⟩ : BufTy).Contents (Elt Ideal)) (x13 : (⟨Cert.KernelIdeal.S128x128, .f32⟩ : BufTy).Contents (Elt Ideal))
    (x14 : (⟨Cert.KernelIdeal.S128, .f32⟩ : BufTy).Contents (Elt Ideal)) (x15 : (⟨Cert.KernelIdeal.S128x128, .f32⟩ : BufTy).Contents (Elt Ideal))
    (x16 : (⟨Cert.KernelIdeal.S128, .f32⟩ : BufTy).Contents (Elt Ideal)) (x17 : (⟨Cert.KernelIdeal.S128x64, .f32⟩ : BufTy).Contents (Elt Ideal))
    (x18 : (⟨Cert.KernelIdeal.S64, .f32⟩ : BufTy).Contents (Elt Ideal)) :
    net x0 x1 x2 x3 x4 x5 x6 x7 x8 x9 x10 x11 x12 x13 x14 x15 x16 x17 x18 = val_main_v66 (F := Ideal) x0 x1 x2 x3 x4 x5 x6 x7 x8 x9 x10 x11 x12 x13 x14 x15 x16 x17 x18 := by
  rw [head, node2]
  unfold val_main_v46
  rw [edge2]
  unfold val_main_v41
  unfold net
  rw [layer1_eq x0 x1 x2 x3 x4 x5 x6 x7 x8]
  generalize val_main_v30 (F := Ideal) x0 x1 x2 x3 x4 x5 x6 x7 x8 = h
  rw [layer2_eq]

end Cert.Bridge

end
-- ==== Proof.lean ====
/-
  The claim: a two-layer GINE network (gather the source rows, an edge linear layer with relu, a sum of the messages
  into their target nodes, a two-layer node update with tanh) followed by a two-layer read-out, computed by five
  blocked kernels with the gather and the scatter-add on the host between them, equals its plain reference over the
  extended reals.  Both programs end holding ONE function of the nineteen argument arrays: the kernel program's
  regions each leave their layer of the rows they cover, and the reference's operations compose to the same layers,
  the matrix products being the same finite sums on both sides.  The gathers and the scatter-adds are the same host
  operations of equal operands in both programs and are never opened.
-/
import proofs.«106492_j7404523618681_1_alg».proof.Defs
import proofs.«106492_j7404523618681_1_alg».proof.Proof.Gen.Kernel
import proofs.«106492_j7404523618681_1_alg».proof.Proof.Gen.Kernel.Frame
import proofs.«106492_j7404523618681_1_alg».proof.Proof.Gen.KernelIdeal
import proofs.«106492_j7404523618681_1_alg».proof.Proof.Gen.KernelIdeal.Frame
import proofs.«106492_j7404523618681_1_alg».proof.Proof.Gen.ReferenceIdeal
import proofs.«106492_j7404523618681_1_alg».proof.Proof.Gen.ReferenceIdeal.Run
import proofs.«106492_j7404523618681_1_alg».proof.Proof.Gen.ReferenceIdeal.Read
import proofs.«106492_j7404523618681_1_alg».proof.Proof.Gen.Pre_finite_inputs
import proofs.«106492_j7404523618681_1_alg».proof.Proof.KernelRun
import proofs.«106492_j7404523618681_1_alg».proof.Proof.KernelValue
import proofs.«106492_j7404523618681_1_alg».proof.Proof.Bridge
import Idealize.ShloMosaic.Adequacy
import Idealize.ShloMosaic.Init

noncomputable section

namespace Cert.Proof

open Idealize.ShloMosaic Idealize.SL.Sem

/-- The kernel program at the word level runs to its end and leaves its arguments as launched. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- The reference is a straight line of host operations: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The reference's result function, at arguments equal to the kernel program's, is the network function of those. -/
theorem ref_eq_net
    (x0 : (⟨Cert.KernelIdeal.S100000x128, .f32⟩ : BufTy).Contents (Elt Ideal)) (y0 : (⟨Cert.ReferenceIdeal.S100000x128, .f32⟩ : BufTy).Contents (Elt Ideal)) (e0 : y0 = x0)
    (x1 : (⟨Cert.KernelIdeal.S2x600000, .i32⟩ : BufTy).Contents (Elt Ideal)) (y1 : (⟨Cert.ReferenceIdeal.S2x600000, .i32⟩ : BufTy).Contents (Elt Ideal)) (e1 : y1 = x1)
    (x2 : (⟨Cert.KernelIdeal.S600000x32, .f32⟩ : BufTy).Contents (Elt Ideal)) (y2 : (⟨Cert.ReferenceIdeal.S600000x32, .f32⟩ : BufTy).Contents (Elt Ideal)) (e2 : y2 = x2)
    (x3 : (⟨Cert.KernelIdeal.S32x128, .f32⟩ : BufTy).Contents (Elt Ideal)) (y3 : (⟨Cert.ReferenceIdeal.S32x128, .f32⟩ : BufTy).Contents (Elt Ideal)) (e3 : y3 = x3)
    (x4 : (⟨Cert.KernelIdeal.S128, .f32⟩ : BufTy).Contents (Elt Ideal)) (y4 : (⟨Cert.ReferenceIdeal.S128, .f32⟩ : BufTy).Contents (Elt Ideal)) (e4 : y4 = x4)
    (x5 : (⟨Cert.KernelIdeal.S128x128, .f32⟩ : BufTy).Contents (Elt Ideal)) (y5 : (⟨Cert.ReferenceIdeal.S128x128, .f32⟩ : BufTy).Contents (Elt Ideal)) (e5 : y5 = x5)
    (x6 : (⟨Cert.KernelIdeal.S128, .f32⟩ : BufTy).Contents (Elt Ideal)) (y6 : (⟨Cert.ReferenceIdeal.S128, .f32⟩ : BufTy).Contents (Elt Ideal)) (e6 : y6 = x6)
    (x7 : (⟨Cert.KernelIdeal.S128x128, .f32⟩ : BufTy).Contents (Elt Ideal)) (y7 : (⟨Cert.ReferenceIdeal.S128x128, .f32⟩ : BufTy).Contents (Elt Ideal)) (e7 : y7 = x7)
    (x8 : (⟨Cert.KernelIdeal.S128, .f32⟩ : BufTy).Contents (Elt Ideal)) (y8 : (⟨Cert.ReferenceIdeal.S128, .f32⟩ : BufTy).Contents (Elt Ideal)) (e8 : y8 = x8)
    (x9 : (⟨Cert.KernelIdeal.S32x128, .f32⟩ : BufTy).Contents (Elt Ideal)) (y9 : (⟨Cert.ReferenceIdeal.S32x128, .f32⟩ : BufTy).Contents (Elt Ideal)) (e9 : y9 = x9)
    (x10 : (⟨Cert.KernelIdeal.S128, .f32⟩ : BufTy).Contents (Elt Ideal)) (y10 : (⟨Cert.ReferenceIdeal.S128, .f32⟩ : BufTy).Contents (Elt Ideal)) (e10 : y10 = x10)
    (x11 : (⟨Cert.KernelIdeal.S128x128, .f32⟩ : BufTy).Contents (Elt Ideal)) (y11 : (⟨Cert.ReferenceIdeal.S128x128, .f32⟩ : BufTy).Contents (Elt Ideal)) (e11 : y11 = x11)
    (x12 : (⟨Cert.KernelIdeal.S128, .f32⟩ : BufTy).Contents (Elt Ideal)) (y12 : (⟨Cert.ReferenceIdeal.S128, .f32⟩ : BufTy).Contents (Elt Ideal)) (e12 : y12 = x12)
    (x13 : (⟨Cert.KernelIdeal.S128x128, .f32⟩ : BufTy).Contents (Elt Ideal)) (y13 : (⟨Cert.ReferenceIdeal.S128x128, .f32⟩ : BufTy).Contents (Elt Ideal)) (e13 : y13 = x13)
    (x14 : (⟨Cert.KernelIdeal.S128, .f32⟩ : BufTy).Contents (Elt Ideal)) (y14 : (⟨Cert.ReferenceIdeal.S128, .f32⟩ : BufTy).Contents (Elt Ideal)) (e14 : y14 = x14)
    (x15 : (⟨Cert.KernelIdeal.S128x128, .f32⟩ : BufTy).Contents (Elt Ideal)) (y15 : (⟨Cert.ReferenceIdeal.S128x128, .f32⟩ : BufTy).Contents (Elt Ideal)) (e15 : y15 = x15)
    (x16 : (⟨Cert.KernelIdeal.S128, .f32⟩ : BufTy).Contents (Elt Ideal)) (y16 : (⟨Cert.ReferenceIdeal.S128, .f32⟩ : BufTy).Contents (Elt Ideal)) (e16 : y16 = x16)
    (x17 : (⟨Cert.KernelIdeal.S128x64, .f32⟩ : BufTy).Contents (Elt Ideal)) (y17 : (⟨Cert.ReferenceIdeal.S128x64, .f32⟩ : BufTy).Contents (Elt Ideal)) (e17 : y17 = x17)
    (x18 : (⟨Cert.KernelIdeal.S64, .f32⟩ : BufTy).Contents (Elt Ideal)) (y18 : (⟨Cert.ReferenceIdeal.S64, .f32⟩ : BufTy).Contents (Elt Ideal)) (e18 : y18 = x18) :
    Cert.ReferenceIdeal.Read.val_main_v66 (F := Ideal) y0 y1 y2 y3 y4 y5 y6 y7 y8 y9 y10 y11 y12 y13 y14 y15 y16 y17 y18
      = Cert.KernelIdeal.Net.net x0 x1 x2 x3 x4 x5 x6 x7 x8 x9 x10 x11 x12 x13 x14 x15 x16 x17 x18 := by
  subst e0 e1 e2 e3 e4 e5 e6 e7 e8 e9 e10 e11 e12 e13 e14 e15 e16 e17 e18
  exact (Cert.Bridge.net_eq_ref _ _ _ _ _ _ _ _ _ _ _ _ _ _ _ _ _ _ _).symm

/-- The reference's result term, at arguments that agree with the kernel program's, is the network function of the
    kernel program's argument arrays. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (e1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (e2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (e3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (e4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (e5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (e6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (e7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (e8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (e9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (e10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (e11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (e12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (e13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (e14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (e15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (e16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (e17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (e18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))) :
    Cert.ReferenceIdeal.Value.res_main_v66 m' c = Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) :=
  (Cert.ReferenceIdeal.Read.val_main_v66_eq m' c).trans
    (ref_eq_net _ _ e0 _ _ e1 _ _ e2 _ _ e3 _ _ e4 _ _ e5 _ _ e6 _ _ e7 _ _ e8 _ _ e9 _ _ e10 _ _ e11 _ _ e12 _ _ e13 _ _ e14 _ _ e15 _ _ e16 _ _ e17 _ _ e18)

/-- Both programs end with the network function of their (agreeing) argument arrays. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)),
    (θ_run Cert.KernelIdeal.defs _ _).mono (fun r h c => ⟨(h c).1.trans (Cert.KernelIdeal.Value.result m ρ c), (h c).2⟩)
      (Cert.KernelIdeal.Run.run (F := Ideal) m ρ),
    (θ_run Cert.ReferenceIdeal.defs _ _).mono (fun r h c => ⟨(h c).1.trans (ref_result m m' c
        (hagree c).1
        (hagree c).2.1
        (hagree c).2.2.1
        (hagree c).2.2.2.1
        (hagree c).2.2.2.2.1
        (hagree c).2.2.2.2.2.1
        (hagree c).2.2.2.2.2.2.1
        (hagree c).2.2.2.2.2.2.2.1
        (hagree c).2.2.2.2.2.2.2.2.1
        (hagree c).2.2.2.2.2.2.2.2.2.1
        (hagree c).2.2.2.2.2.2.2.2.2.2.1
        (hagree c).2.2.2.2.2.2.2.2.2.2.2.1
        (hagree c).2.2.2.2.2.2.2.2.2.2.2.2.1
        (hagree c).2.2.2.2.2.2.2.2.2.2.2.2.2.1
        (hagree c).2.2.2.2.2.2.2.2.2.2.2.2.2.2.1
        (hagree c).2.2.2.2.2.2.2.2.2.2.2.2.2.2.2.1
        (hagree c).2.2.2.2.2.2.2.2.2.2.2.2.2.2.2.2.1
        (hagree c).2.2.2.2.2.2.2.2.2.2.2.2.2.2.2.2.2.1
        (hagree c).2.2.2.2.2.2.2.2.2.2.2.2.2.2.2.2.2.2), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
